-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩

abbrev nBuf : Space → Nat
  | .hbm => 9
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  h_S_ : 0 < S_.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S256x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .i1⟩
  | .hbm, ⟨12, _⟩ => ⟨S8192x8192, .i1⟩
  | .hbm, ⟨13, _⟩ => ⟨S8192x8192, .i1⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S8192x8192, .i1⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Entry.lean ====
/-
  The contents of the unscoped buffers when the one kernel region is entered.

  The program first reshapes the label vector to a column [8192,1] and to a row [1,8192]; the region then reads
  the rows array twice (through a row-block window and a column-block window), the two reshaped label arrays, and
  writes the per-row sums.  W0 is the launch memory read as a valuation, W1 the valuation after the two reshapes,
  V1 the same read at the core's own references: what the region's windows find in their arrays.
-/
import proofs.«111649_j5815385719271_1_alg».proof.Proof.Gen.Kernel.Launch
import Idealize.ShloMosaic.Lib.Pipeline.Frame

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- The launch memory of core c, as a valuation of its buffers. -/
abbrev W0 (c : Dev nD) : Valuation τ sig (Elt F) := fun b => m (c, b)
/-- After the two reshapes of the labels. -/
abbrev W1 (c : Dev nD) : Valuation τ sig (Elt F) := StableHlo.after hostOps0 (W0 m c)
/-- The same read at the core's own references: what the region's windows find. -/
abbrev V1 (c : Dev nD) (b : Ref sig .tc) : Buf (Elt F) ((c : Thread nD τ).loc b) := W1 m c (Proc.devRef .tc b)

/-- Neither stretch of host operations allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

end Cert.Kernel.Hand

end
-- ==== Proof.K.Setup.lean ====
/-
  What the runs of the kernel body and the proof data share.

  The grid has 8 × 8 points, point t = 8·i + j.  The body resets its [1024,1] scratch when j = 0 (condition
  `atFirst`), adds the tile's row sums to it at every point, and copies it to the output block when j = 7
  (condition `atLast`).  Both conditions are decided over the 64 points in closed form.  An input window's current
  staging buffer holds the window's block of its array at every point, fetched there or carried over; the output
  window is idle (untouched, not written back) except at the points with j = 7.
-/
import proofs.«111649_j5815385719271_1_alg».proof.Proof.K.Entry
import proofs.«111649_j5815385719271_1_alg».proof.Proof.Gen.Kernel.Skeleton
import proofs.«111649_j5815385719271_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- An input window's current buffer holds its block at every point, whether the point fetches it or an earlier one
    did: the index map has not moved since, and the body leaves the buffer as it found it. Stated for any proof data
    over the entry contents, one window at a time. -/
theorem before_rows_of {c : Dev nD} (dat : Dat τ (Elt F) Unit ℕ (UR sig nD τ) ℕ cfg0 c) (hA : dat.A 0 = V1 m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_cols_of {c : Dev nD} (dat : Dat τ (Elt F) Unit ℕ (UR sig nD τ) ℕ cfg0 c) (hA : dat.A 1 = V1 m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_rowLabels_of {c : Dev nD} (dat : Dat τ (Elt F) Unit ℕ (UR sig nD τ) ℕ cfg0 c) (hA : dat.A 2 = V1 m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_colLabels_of {c : Dev nD} (dat : Dat τ (Elt F) Unit ℕ (UR sig nD τ) ℕ cfg0 c) (hA : dat.A 3 = V1 m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, over the grid -/

/-- The scratch is reset: the column coordinate j is 0 (the body's scalar chain, substituted). -/
abbrev atFirst (i : grid0.Coords) : Prop := (Scalar.cmpi .ne (Scalar.extui (Scalar.cmpi .eq (BitVec.ofNat 32 (i 1).val) 0#32)) 0#32) = 1#1
/-- It holds at the points 8·i. -/
theorem atFirst_iff : ∀ t : Fin cfg0.N, atFirst (grid0.coords t) ↔ t.val % 8 = 0 :=
  (by decide +kernel : ∀ t : Fin grid0.N, atFirst (grid0.coords t) ↔ t.val % 8 = 0)

/-- The output block is stored: j is 7. -/
abbrev atLast (i : grid0.Coords) : Prop := k0_cond2 i = 1#1
/-- It holds at the points 8·i + 7. -/
theorem atLast_iff : ∀ t : Fin cfg0.N, atLast (grid0.coords t) ↔ t.val % 8 = 7 :=
  (by decide +kernel : ∀ t : Fin grid0.N, atLast (grid0.coords t) ↔ t.val % 8 = 7)

/-! ## Where the windows are idle -/

theorem live_rows : ∀ t : Fin cfg0.N, cfg0.idle 0 (grid0.coords t) = false := by decide +kernel
theorem live_cols : ∀ t : Fin cfg0.N, cfg0.idle 1 (grid0.coords t) = false := by decide +kernel
theorem live_rowLabels : ∀ t : Fin cfg0.N, cfg0.idle 2 (grid0.coords t) = false := by decide +kernel
theorem live_colLabels : ∀ t : Fin cfg0.N, cfg0.idle 3 (grid0.coords t) = false := by decide +kernel
/-- Away from j = 7 the output window is idle and its block is not written back. -/
theorem idle_out : ∀ t : Fin cfg0.N, ¬atLast (grid0.coords t) → cfg0.idle 4 (grid0.coords t) = true := by decide +kernel
theorem noFlush_out : ∀ t : Fin cfg0.N, ¬atLast (grid0.coords t) → (cfg0.win 4).flush t = false := by decide +kernel
/-- At j = 7 it is live. -/
theorem live_out : ∀ t : Fin cfg0.N, atLast (grid0.coords t) → cfg0.idle 4 (grid0.coords t) = false := by decide +kernel

/-! ## The memrefs the body is called with -/

/-- One staging buffer of the output window, through which its contents are stated. -/
abbrev VO : View sig .tc .vmem S1024x1 .f32 := (Memref.whole cc0_stg4_0 : Memref sig .tc .vmem S1024x1 .f32).view
abbrev ms_rows (t : Fin cfg0.N) : Memref sig .tc .vmem S1024x256 .f32 := win0_0.stage (cfg0.slots t 0)
abbrev hs_rows (t : Fin cfg0.N) : (ms_rows t).IsWhole := hstage0_0 ((cfg0.slots t 0).cast nbuf0_0)
abbrev ms_cols (t : Fin cfg0.N) : Memref sig .tc .vmem S1024x256 .f32 := win0_1.stage (cfg0.slots t 1)
abbrev hs_cols (t : Fin cfg0.N) : (ms_cols t).IsWhole := hstage0_1 ((cfg0.slots t 1).cast nbuf0_1)
abbrev ms_rowLabels (t : Fin cfg0.N) : Memref sig .tc .vmem S1024x1 .i32 := win0_2.stage (cfg0.slots t 2)
abbrev hs_rowLabels (t : Fin cfg0.N) : (ms_rowLabels t).IsWhole := hstage0_2 ((cfg0.slots t 2).cast nbuf0_2)
abbrev ms_colLabels (t : Fin cfg0.N) : Memref sig .tc .vmem S1x1024 .i32 := win0_3.stage (cfg0.slots t 3)
abbrev hs_colLabels (t : Fin cfg0.N) : (ms_colLabels t).IsWhole := hstage0_3 ((cfg0.slots t 3).cast nbuf0_3)
abbrev ms_out (t : Fin cfg0.N) : Memref sig .tc .vmem S1024x1 .f32 := win0_4.stage (cfg0.slots t 4)
abbrev hs_out (t : Fin cfg0.N) : (ms_out t).IsWhole := hstage0_4 ((cfg0.slots t 4).cast nbuf0_4)
/-- The running-sum scratch, a whole scoped buffer of the kernel's own, and its view. -/
abbrev accM : Memref sig .tc .vmem S1024x1 .f32 := Memref.whole cc0_scratch0
abbrev VS : View sig .tc .vmem S1024x1 .f32 := (accM).view

/-- The region's plain invariant, with the scratch as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.K.RunFirst.lean ====
/-
  The kernel body at a point where the running sum is RESET (column coordinate 0) and the output block is not stored.

  On whole staging memrefs holding the four input blocks, the output's buffer at anything (it is handed back
  untouched) and the scratch at anything, the body runs to its end, the inputs as they were and the scratch with the
  pieces its two stores wrote: the zero vector first, then the tile's row sums added to what was read back.
-/
import proofs.«111649_j5815385719271_1_alg».proof.Proof.K.Setup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the scratch ends with at a resetting point, with the proof that the body runs to them. -/
noncomputable def tileRun_first (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : atFirst i) (hc1 : ¬atLast i)
    (x0 x1 : Vec F S1024x256 .f32) (x2 : Vec F S1024x1 .i32) (x3 : Vec F S1x1024 .i32) :
    Σ' (L4 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨[], ?_, fun xi E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    iexists _; iexact HS

end Cert.Kernel.Hand

end
-- ==== Proof.K.RunMid.lean ====
/-
  The kernel body at a point that neither resets the running sum nor stores the output block (column coordinate 1 to 6).

  The scratch holds what the point before left; the body reads it, adds the tile's row sums and stores it back whole.
-/
import proofs.«111649_j5815385719271_1_alg».proof.Proof.K.RunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the scratch ends with at an inner point, over the contents xs the point before left. -/
noncomputable def tileRun_mid (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : ¬atLast i)
    (x0 x1 : Vec F S1024x256 .f32) (x2 : Vec F S1024x1 .i32) (x3 : Vec F S1x1024 .i32) (xs : Vec F S1024x1 .f32) :
    Σ' (L4 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨[], ?_, fun xi E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    iexists _; iexact HS

end Cert.Kernel.Hand

end
-- ==== Proof.K.RunLast.lean ====
/-
  The kernel body at a point that stores the output block (column coordinate 7).

  The scratch holds what the point before left; the body adds the tile's row sums, stores the scratch back whole,
  reads it again and stores that into the output's buffer, which it found at anything.
-/
import proofs.«111649_j5815385719271_1_alg».proof.Proof.K.RunMid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the output's buffer and the scratch end with at a storing point, over the contents xs the point before left. -/
noncomputable def tileRun_last (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : atLast i)
    (x0 x1 : Vec F S1024x256 .f32) (x2 : Vec F S1024x1 .i32) (x3 : Vec F S1x1024 .i32) (xs : Vec F S1024x1 .f32) :
    Σ' (L4 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.K.Data.lean ====
/-
  The proof data of the one pipeline, and the body obligation at every point.

  accAt n is what the running-sum scratch holds after the body at point n: at a point with column coordinate 0 the
  resetting run's result, otherwise the adding run's result over what point n − 1 left.  The output's buffer holds, at
  a point with column coordinate 7, what the storing run wrote; at the other points it is idle and nothing reads it.
  The invariant before point n > 0 is the scratch at accAt (n − 1) beside the generator register; before the first
  point it is the region's plain invariant (the scratch at anything).  The rows array is read through two windows,
  which hold it at the two halves of the full share.
-/
import proofs.«111649_j5815385719271_1_alg».proof.Proof.K.RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What each run leaves, read back -/

theorem accCover_first (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : atFirst i) (hc1 : ¬atLast i) (x0 x1 : Vec F S1024x256 .f32) (x2 : Vec F S1024x1 .i32) (x3 : Vec F S1x1024 .i32) (y : S1024x1.Idx) :
    ∃ pc ∈ (tileRun_first c i arg2 harg2 arg3 harg3 arg4 harg4 arg5 harg5 arg6 harg6 arg7 harg7 hc0 hc1 x0 x1 x2 x3).2.1, y ∈ pc.1.set :=
  View.cover_of_tiledL (tileRun_first c i arg2 harg2 arg3 harg3 arg4 harg4 arg5 harg5 arg6 harg6 arg7 harg7 hc0 hc1 x0 x1 x2 x3).2.1 S1024x1.size (by sl_kernel_rfl) y
/-- The scratch after a resetting point. -/
def accAfter_first (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : atFirst i) (hc1 : ¬atLast i) (x0 x1 : Vec F S1024x256 .f32) (x2 : Vec F S1024x1 .i32) (x3 : Vec F S1x1024 .i32) : Vec F S1024x1 .f32 :=
  VS.read (Elt F) (VS.writes (Elt F) VS.junk (tileRun_first c i arg2 harg2 arg3 harg3 arg4 harg4 arg5 harg5 arg6 harg6 arg7 harg7 hc0 hc1 x0 x1 x2 x3).2.1)

theorem accCover_mid (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : ¬atLast i) (x0 x1 : Vec F S1024x256 .f32) (x2 : Vec F S1024x1 .i32) (x3 : Vec F S1x1024 .i32) (xs : Vec F S1024x1 .f32) (y : S1024x1.Idx) :
    ∃ pc ∈ (tileRun_mid c i arg2 harg2 arg3 harg3 arg4 harg4 arg5 harg5 arg6 harg6 arg7 harg7 hc0 hc1 x0 x1 x2 x3 xs).2.1, y ∈ pc.1.set :=
  View.cover_of_tiledL (tileRun_mid c i arg2 harg2 arg3 harg3 arg4 harg4 arg5 harg5 arg6 harg6 arg7 harg7 hc0 hc1 x0 x1 x2 x3 xs).2.1 S1024x1.size (by sl_kernel_rfl) y
/-- The scratch after an inner point, over what the point before left. -/
def accAfter_mid (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : ¬atLast i) (x0 x1 : Vec F S1024x256 .f32) (x2 : Vec F S1024x1 .i32) (x3 : Vec F S1x1024 .i32) (xs : Vec F S1024x1 .f32) : Vec F S1024x1 .f32 :=
  VS.read (Elt F) (VS.writes (Elt F) VS.junk (tileRun_mid c i arg2 harg2 arg3 harg3 arg4 harg4 arg5 harg5 arg6 harg6 arg7 harg7 hc0 hc1 x0 x1 x2 x3 xs).2.1)

theorem accCover_last (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : atLast i) (x0 x1 : Vec F S1024x256 .f32) (x2 : Vec F S1024x1 .i32) (x3 : Vec F S1x1024 .i32) (xs : Vec F S1024x1 .f32) (y : S1024x1.Idx) :
    ∃ pc ∈ (tileRun_last c i arg2 harg2 arg3 harg3 arg4 harg4 arg5 harg5 arg6 harg6 arg7 harg7 hc0 hc1 x0 x1 x2 x3 xs).2.1, y ∈ pc.1.set :=
  View.cover_of_tiledL (tileRun_last c i arg2 harg2 arg3 harg3 arg4 harg4 arg5 harg5 arg6 harg6 arg7 harg7 hc0 hc1 x0 x1 x2 x3 xs).2.1 S1024x1.size (by sl_kernel_rfl) y
/-- The scratch after a storing point, over what the point before left. -/
def accAfter_last (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : atLast i) (x0 x1 : Vec F S1024x256 .f32) (x2 : Vec F S1024x1 .i32) (x3 : Vec F S1x1024 .i32) (xs : Vec F S1024x1 .f32) : Vec F S1024x1 .f32 :=
  VS.read (Elt F) (VS.writes (Elt F) VS.junk (tileRun_last c i arg2 harg2 arg3 harg3 arg4 harg4 arg5 harg5 arg6 harg6 arg7 harg7 hc0 hc1 x0 x1 x2 x3 xs).2.1)

theorem outCover_last (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : atLast i) (x0 x1 : Vec F S1024x256 .f32) (x2 : Vec F S1024x1 .i32) (x3 : Vec F S1x1024 .i32) (xs : Vec F S1024x1 .f32) (y : S1024x1.Idx) :
    ∃ pc ∈ (tileRun_last c i arg2 harg2 arg3 harg3 arg4 harg4 arg5 harg5 arg6 harg6 arg7 harg7 hc0 hc1 x0 x1 x2 x3 xs).1, y ∈ pc.1.set :=
  View.cover_of_tiledL (tileRun_last c i arg2 harg2 arg3 harg3 arg4 harg4 arg5 harg5 arg6 harg6 arg7 harg7 hc0 hc1 x0 x1 x2 x3 xs).1 S1024x1.size (by sl_kernel_rfl) y
/-- The output's buffer after a storing point. -/
def outAfter_last (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : atLast i) (x0 x1 : Vec F S1024x256 .f32) (x2 : Vec F S1024x1 .i32) (x3 : Vec F S1x1024 .i32) (xs : Vec F S1024x1 .f32) : Vec F S1024x1 .f32 :=
  VO.read (Elt F) (VO.writes (Elt F) VO.junk (tileRun_last c i arg2 harg2 arg3 harg3 arg4 harg4 arg5 harg5 arg6 harg6 arg7 harg7 hc0 hc1 x0 x1 x2 x3 xs).1)

/-! ## The running sum, point by point -/

theorem N_lt {n : ℕ} (hn : n < cfg0.N) : n < 64 := lt_of_lt_of_eq hn (show cfg0.N = 64 from N_0)

/-- What the scratch holds after the body at point n. -/
def accAt (c : Dev nD) : (n : ℕ) → n < cfg0.N → Vec F S1024x1 .f32
  | 0, hn => accAfter_first c (grid0.coords ⟨0, hn⟩) (ms_rows ⟨0, hn⟩) (hs_rows ⟨0, hn⟩) (ms_cols ⟨0, hn⟩) (hs_cols ⟨0, hn⟩) (ms_rowLabels ⟨0, hn⟩) (hs_rowLabels ⟨0, hn⟩) (ms_colLabels ⟨0, hn⟩) (hs_colLabels ⟨0, hn⟩) (ms_out ⟨0, hn⟩) (hs_out ⟨0, hn⟩) accM (Memref.isWhole_whole _) ((atFirst_iff ⟨0, hn⟩).mpr (Nat.zero_mod _)) (fun h => (fun h => by (try dsimp only at h); omega) ((atLast_iff ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 8 = 0 then
      accAfter_first c (grid0.coords ⟨n + 1, hn⟩) (ms_rows ⟨n + 1, hn⟩) (hs_rows ⟨n + 1, hn⟩) (ms_cols ⟨n + 1, hn⟩) (hs_cols ⟨n + 1, hn⟩) (ms_rowLabels ⟨n + 1, hn⟩) (hs_rowLabels ⟨n + 1, hn⟩) (ms_colLabels ⟨n + 1, hn⟩) (hs_colLabels ⟨n + 1, hn⟩) (ms_out ⟨n + 1, hn⟩) (hs_out ⟨n + 1, hn⟩) accM (Memref.isWhole_whole _) ((atFirst_iff ⟨n + 1, hn⟩).mpr h0) (fun h => (fun h => by (try dsimp only at h); omega) ((atLast_iff ⟨n + 1, hn⟩).mp h)) (iblk m c 0 ⟨n + 1, hn⟩) (iblk m c 1 ⟨n + 1, hn⟩) (iblk m c 2 ⟨n + 1, hn⟩) (iblk m c 3 ⟨n + 1, hn⟩)
    else if h1 : (n + 1) % 8 = 7 then
      accAfter_last c (grid0.coords ⟨n + 1, hn⟩) (ms_rows ⟨n + 1, hn⟩) (hs_rows ⟨n + 1, hn⟩) (ms_cols ⟨n + 1, hn⟩) (hs_cols ⟨n + 1, hn⟩) (ms_rowLabels ⟨n + 1, hn⟩) (hs_rowLabels ⟨n + 1, hn⟩) (ms_colLabels ⟨n + 1, hn⟩) (hs_colLabels ⟨n + 1, hn⟩) (ms_out ⟨n + 1, hn⟩) (hs_out ⟨n + 1, hn⟩) accM (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (iblk m c 2 ⟨n + 1, hn⟩) (iblk m c 3 ⟨n + 1, hn⟩) (accAt c n (Nat.lt_of_succ_lt hn))
    else
      accAfter_mid c (grid0.coords ⟨n + 1, hn⟩) (ms_rows ⟨n + 1, hn⟩) (hs_rows ⟨n + 1, hn⟩) (ms_cols ⟨n + 1, hn⟩) (hs_cols ⟨n + 1, hn⟩) (ms_rowLabels ⟨n + 1, hn⟩) (hs_rowLabels ⟨n + 1, hn⟩) (ms_colLabels ⟨n + 1, hn⟩) (hs_colLabels ⟨n + 1, hn⟩) (ms_out ⟨n + 1, hn⟩) (hs_out ⟨n + 1, hn⟩) accM (Memref.isWhole_whole _) (fun h => h0 ((atFirst_iff ⟨n + 1, hn⟩).mp h)) (fun h => h1 ((atLast_iff ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

/-- At a resetting point. -/
theorem accAt_first (c : Dev nD) (t : Fin cfg0.N) (h0 : t.val % 8 = 0) (h1 : ¬t.val % 8 = 7) :
    accAt m c t.val t.isLt = accAfter_first c (grid0.coords t) (ms_rows t) (hs_rows t) (ms_cols t) (hs_cols t) (ms_rowLabels t) (hs_rowLabels t) (ms_colLabels t) (hs_colLabels t) (ms_out t) (hs_out t) accM (Memref.isWhole_whole _) ((atFirst_iff t).mpr h0) (fun h => h1 ((atLast_iff t).mp h)) (iblk m c 0 t) (iblk m c 1 t) (iblk m c 2 t) (iblk m c 3 t) := by
  obtain ⟨n, hn⟩ := t
  cases n with
  | zero => exact rfl
  | succ n => exact (dif_pos h0).trans rfl

/-- At an inner point, over what the point before left. -/
theorem accAt_mid (c : Dev nD) (t : Fin cfg0.N) (h0 : ¬t.val % 8 = 0) (h1 : ¬t.val % 8 = 7) :
    accAt m c t.val t.isLt = accAfter_mid c (grid0.coords t) (ms_rows t) (hs_rows t) (ms_cols t) (hs_cols t) (ms_rowLabels t) (hs_rowLabels t) (ms_colLabels t) (hs_colLabels t) (ms_out t) (hs_out t) accM (Memref.isWhole_whole _) (fun h => h0 ((atFirst_iff t).mp h)) (fun h => h1 ((atLast_iff t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a storing point, over what the point before left. -/
theorem accAt_last (c : Dev nD) (t : Fin cfg0.N) (h0 : ¬t.val % 8 = 0) (h1 : t.val % 8 = 7) :
    accAt m c t.val t.isLt = accAfter_last c (grid0.coords t) (ms_rows t) (hs_rows t) (ms_cols t) (hs_cols t) (ms_rowLabels t) (hs_rowLabels t) (ms_colLabels t) (hs_colLabels t) (ms_out t) (hs_out t) accM (Memref.isWhole_whole _) (fun h => h0 ((atFirst_iff t).mp h)) ((atLast_iff t).mpr h1) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output's buffer holds after the body at point n: at a storing point what the run wrote; elsewhere the
    window is idle and this value is consulted by nothing (the running sum stands in). -/
def outAt (c : Dev nD) (n : ℕ) (hn : n < cfg0.N) : Vec F S1024x1 .f32 :=
  if h1 : n % 8 = 7 then
    outAfter_last c (grid0.coords ⟨n, hn⟩) (ms_rows ⟨n, hn⟩) (hs_rows ⟨n, hn⟩) (ms_cols ⟨n, hn⟩) (hs_cols ⟨n, hn⟩) (ms_rowLabels ⟨n, hn⟩) (hs_rowLabels ⟨n, hn⟩) (ms_colLabels ⟨n, hn⟩) (hs_colLabels ⟨n, hn⟩) (ms_out ⟨n, hn⟩) (hs_out ⟨n, hn⟩) accM (Memref.isWhole_whole _) (fun h => (fun h' => by (try dsimp only at h'); omega) ((atFirst_iff ⟨n, hn⟩).mp h)) ((atLast_iff ⟨n, hn⟩).mpr h1) (iblk m c 0 ⟨n, hn⟩) (iblk m c 1 ⟨n, hn⟩) (iblk m c 2 ⟨n, hn⟩) (iblk m c 3 ⟨n, hn⟩) (accAt m c (n - 1) (Nat.lt_of_le_of_lt (Nat.sub_le _ _) hn))
  else accAt m c n hn

theorem outAt_last (c : Dev nD) (t : Fin cfg0.N) (h0 : ¬t.val % 8 = 0) (h1 : t.val % 8 = 7) :
    outAt m c t.val t.isLt = outAfter_last c (grid0.coords t) (ms_rows t) (hs_rows t) (ms_cols t) (hs_cols t) (ms_rowLabels t) (hs_rowLabels t) (ms_colLabels t) (hs_colLabels t) (ms_out t) (hs_out t) accM (Memref.isWhole_whole _) (fun h => h0 ((atFirst_iff t).mp h)) ((atLast_iff t).mpr h1) (iblk m c 0 t) (iblk m c 1 t) (iblk m c 2 t) (iblk m c 3 t) (accAt m c (t.val - 1) (Nat.lt_of_le_of_lt (Nat.sub_le _ _) t.isLt)) := by
  unfold outAt; rw [dif_pos h1]

/-! ## The invariant -/

/-- Before point n: the region's plain invariant before the first point, afterwards the scratch at what the point
    before left, beside the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- The arrays as the region finds them; after the body each input's buffer at its block and the output's at outAt;
    the invariant PhiS; nothing owed; the rows array's full share dealt in halves to its two windows. -/
def dat (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat m c).A w = V1 m c (Pipeline.arrRef spec0 w) := by
  dsimp only [dat]
theorem PhiS_castSucc (c : Dev nD) (t : Fin cfg0.N) :
    (dat m c).Φ t.castSucc = PhiS m c t.val (Nat.le_of_lt t.isLt) := by
  dsimp only [dat]; simp only [Fin.coe_castSucc]

theorem after_rows (c : Dev nD) (t : Fin cfg0.N) : (dat m c).after 0 t = iblk m c 0 t := by dsimp only [dat]
theorem after_cols (c : Dev nD) (t : Fin cfg0.N) : (dat m c).after 1 t = iblk m c 1 t := by dsimp only [dat]
theorem after_rowLabels (c : Dev nD) (t : Fin cfg0.N) : (dat m c).after 2 t = iblk m c 2 t := by dsimp only [dat]
theorem after_colLabels (c : Dev nD) (t : Fin cfg0.N) : (dat m c).after 3 t = iblk m c 3 t := by dsimp only [dat]
theorem after_out (c : Dev nD) (t : Fin cfg0.N) : (dat m c).after 4 t = outAt m c t.val t.isLt := by dsimp only [dat]

theorem before_rows (c : Dev nD) (t : Fin cfg0.N) (d) : (dat m c).before 0 t d = iblk m c 0 t :=
  before_rows_of m (dat m c) (A_eq m c 0) (after_rows m c) t d
theorem before_cols (c : Dev nD) (t : Fin cfg0.N) (d) : (dat m c).before 1 t d = iblk m c 1 t :=
  before_cols_of m (dat m c) (A_eq m c 1) (after_cols m c) t d
theorem before_rowLabels (c : Dev nD) (t : Fin cfg0.N) (d) : (dat m c).before 2 t d = iblk m c 2 t :=
  before_rowLabels_of m (dat m c) (A_eq m c 2) (after_rowLabels m c) t d
theorem before_colLabels (c : Dev nD) (t : Fin cfg0.N) (d) : (dat m c).before 3 t d = iblk m c 3 t :=
  before_colLabels_of m (dat m c) (A_eq m c 3) (after_colLabels m c) t d

/-! ## The body obligation -/

/-- What the body is called with at point t, -/
def bodyPre (c : Dev nD) (t : Fin cfg0.N) : sProp 𝕄 :=
  iprop((dat m c).Φ t.castSucc ∗ (dat m c).owesAt () t.castSucc
    ∗ (∃ d, owns (c : Thread nD τ) (ms_rows t) fullShare ((dat m c).before 0 t d))
    ∗ (∃ d, owns (c : Thread nD τ) (ms_cols t) fullShare ((dat m c).before 1 t d))
    ∗ (∃ d, owns (c : Thread nD τ) (ms_rowLabels t) fullShare ((dat m c).before 2 t d))
    ∗ (∃ d, owns (c : Thread nD τ) (ms_colLabels t) fullShare ((dat m c).before 3 t d))
    ∗ (∃ d, owns (c : Thread nD τ) (ms_out t) fullShare ((dat m c).before 4 t d)))

/-- and what it returns. -/
def bodyPost (c : Dev nD) (t : Fin cfg0.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t)

theorem leaves_rows (c : Dev nD) (t : Fin cfg0.N) : (dat m c).leavesExact 0 t = owns (c : Thread nD τ) (ms_rows t) fullShare (iblk m c 0 t) := by
  unfold Dat.leavesExact; rw [live_rows t, after_rows]
theorem leaves_cols (c : Dev nD) (t : Fin cfg0.N) : (dat m c).leavesExact 1 t = owns (c : Thread nD τ) (ms_cols t) fullShare (iblk m c 1 t) := by
  unfold Dat.leavesExact; rw [live_cols t, after_cols]
theorem leaves_rowLabels (c : Dev nD) (t : Fin cfg0.N) : (dat m c).leavesExact 2 t = owns (c : Thread nD τ) (ms_rowLabels t) fullShare (iblk m c 2 t) := by
  unfold Dat.leavesExact; rw [live_rowLabels t, after_rowLabels]
theorem leaves_colLabels (c : Dev nD) (t : Fin cfg0.N) : (dat m c).leavesExact 3 t = owns (c : Thread nD τ) (ms_colLabels t) fullShare (iblk m c 3 t) := by
  unfold Dat.leavesExact; rw [live_colLabels t, after_colLabels]

set_option maxHeartbeats 4800000 in
/-- The body at any point: the inputs' buffers hold their blocks; the point's class (resetting, inner, storing) is
    read off t mod 8; the invariant hands the body the scratch at what the point before left (at anything at the very
    first point) and takes it back at this point's contents; away from the storing points the output's buffer goes back
    untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols, before_rowLabels, before_colLabels]
  rw [show (dat m c).owesAt () t.succ = (dat m c).owesAt () t.castSucc from rfl]
  rw [show (dat m c).Φ t.succ = PhiS m c (t.val + 1) t.isLt from rfl, PhiS_succ]
  rw [leaves_rows, leaves_cols, leaves_rowLabels, leaves_colLabels]
  have hN : t.val < 64 := N_lt t.isLt
  by_cases h0 : t.val % 8 = 0
  · have h1 : ¬t.val % 8 = 7 := by omega
    rw [Dat.leavesExact_idle (dat m c) 4 t (idle_out t (fun h => h1 ((atLast_iff t).mp h))) (noFlush_out t (fun h => h1 ((atLast_iff t).mp h)))]
    rw [accAt_first m c t h0 h1]
    unfold accAfter_first; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩⟩
      iapply ((tileRun_first c (grid0.coords t) _ _ _ _ _ _ _ _ _ _ _ _ ((atFirst_iff t).mpr h0) (fun h => h1 ((atLast_iff t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accCover_first c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((tileRun_first c (grid0.coords t) _ _ _ _ _ _ _ _ _ _ _ _ ((atFirst_iff t).mpr h0) (fun h => h1 ((atLast_iff t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accCover_first c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 8 = 7
    · rw [show (dat m c).leavesExact 4 t = owns (c : Thread nD τ) (ms_out t) fullShare ((dat m c).after 4 t) from by
        unfold Dat.leavesExact; rw [live_out t ((atLast_iff t).mpr h1)], after_out]
      rw [outAt_last m c t h0 h1, accAt_last m c t h0 h1]
      unfold outAfter_last accAfter_last; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((tileRun_last c (grid0.coords t) _ _ _ _ _ _ _ _ _ _ _ _ (fun h => h0 ((atFirst_iff t).mp h)) ((atLast_iff t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (accCover_last c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outCover_last c _ _ _ _ _ _ _ _ _ _ _ _ _ _ _ _ _ _ _ _)
    · rw [Dat.leavesExact_idle (dat m c) 4 t (idle_out t (fun h => h1 ((atLast_iff t).mp h))) (noFlush_out t (fun h => h1 ((atLast_iff t).mp h)))]
      rw [accAt_mid m c t h0 h1]
      unfold accAfter_mid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((tileRun_mid c (grid0.coords t) _ _ _ _ _ _ _ _ _ _ _ _ (fun h => h0 ((atFirst_iff t).mp h)) (fun h => h1 ((atLast_iff t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accCover_mid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body obligation at every point. -/
theorem body_obligation (c : Dev nD) : BodyObligation (dat (F := F) m c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dat m c).Φ 0 := by
  rw [show (dat m c).Φ 0 = PhiS m c 0 (Nat.zero_le _) from rfl, PhiS_zero m c 0 _ rfl]
  try exact Idealize.SL.BI.Entails.refl _

/-- After the last point the invariant gives the plain one back: the scratch's contents are forgotten. -/
theorem hout (c : Dev nD) : (dat m c).Φ (Fin.last cfg0.N) ⊢ Pipeline.ΦA spec0 c := by
  rw [show (dat m c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

end Cert.Kernel.Hand

end
-- ==== Proof.K.Launch.lean ====
/-
  The launch of the idealized kernel program: @main as two reshapes, one kernel region, four host operations.

  The region's windows 0 and 1 read ONE array (the rows, through a row-block map and a column-block map), so the
  buffers behind the windows' arrays are four, not five: the rows array is held whole when the region is entered,
  its full share is cut into a left half for window 0 and a right half for window 1, and the halves are joined
  again when the region is left.  Everything else is the several-segments launch: the unscoped buffers at a
  valuation per boundary (W0 at launch, W1 after the reshapes, W2 after the region, W3 at the return), the
  generator register and the tallies riding along.
-/
import proofs.«111649_j5815385719271_1_alg».proof.Proof.K.Entry
import Idealize.ShloMosaic.Lib.Pipeline.Frame
import Idealize.ShloMosaic.Lib.Pipeline.FrameSuffix
import Idealize.ShloMosaic.Lib.Pipeline.Regions
import Idealize.ShloMosaic.Lib.Pipeline.Kit

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The windows' arrays against the buffers behind them -/

/-- The buffers behind the windows' arrays are the rows array, the two reshaped label arrays and the output. -/
theorem arrRef_image : (Finset.univ.image (Pipeline.arrRef spec0) : Finset (Ref sig .tc)) = [main_arg0, main_v0, main_v1, main_v2].toFinset := by
  decide

/-- The four buffers behind the five windows, each whole at the full share at contents X, are the pipeline's arrays
    at contents G read off X: the rows array's full share is the left half (window 0) beside the right half
    (window 1); the other three windows hold their arrays whole. -/
theorem arrays_iff (c : Dev nD) (dat : Pipeline.Dat τ (Elt F) Unit ℕ (UR sig nD τ) ℕ cfg0 c)
    (hq0 : dat.q 0 = fullShare.left) (hq1 : dat.q 1 = fullShare.right) (hq2 : dat.q 2 = fullShare) (hq3 : dat.q 3 = fullShare)
    (X : (b : Ref sig .tc) → Buf (Elt F) ((c : Thread nD τ).loc b))
    (G : (w : Fin cfg0.W) → Buf (Elt F) ((cfg0.win w).arr.view.loc (c : Thread nD τ))) (hG : ∀ w, G w = X (Pipeline.arrRef spec0 w)) :
    (Pipeline.arrBufs spec0 c X : sProp 𝕄) ⊣⊢ dat.arrays G := by
  -- the shares: an input window holds its array at the proof data's share, the output window at the full share
  have s0 : dat.share 0 = fullShare.left := hq0
  have s1 : dat.share 1 = fullShare.right := hq1
  have s2 : dat.share 2 = fullShare := hq2
  have s3 : dat.share 3 = fullShare := hq3
  have s4 : dat.share 4 = fullShare := rfl
  unfold Pipeline.arrBufs Pipeline.Dat.arrays
  rw [bigSep_eq_bigSepL_of_eq _ arrRef_image (by decide), bigSep_W0]
  rw [(arr_whole0 0).set_eq_univ, (arr_whole0 2).set_eq_univ, (arr_whole0 3).set_eq_univ, (arr_whole0 4).set_eq_univ,
    s0, s1, s2, s3, s4, hG 0, hG 1, hG 2, hG 3, hG 4]
  show (iprop(((c : Thread nD τ).loc main_arg0 ↦{fullShare} X main_arg0) ∗ ((c : Thread nD τ).loc main_v0 ↦{fullShare} X main_v0)
        ∗ ((c : Thread nD τ).loc main_v1 ↦{fullShare} X main_v1) ∗ ((c : Thread nD τ).loc main_v2 ↦{fullShare} X main_v2)) : sProp 𝕄)
      ⊣⊢ iprop(((c : Thread nD τ).loc main_arg0 ↦{fullShare.left} X main_arg0) ∗ ((c : Thread nD τ).loc main_arg0 ↦{fullShare.right} X main_arg0)
        ∗ ((c : Thread nD τ).loc main_v0 ↦{fullShare} X main_v0) ∗ ((c : Thread nD τ).loc main_v1 ↦{fullShare} X main_v1)
        ∗ ((c : Thread nD τ).loc main_v2 ↦{fullShare} X main_v2))
  -- the rows array's full share is its left half beside its right half
  have hsh : (((c : Thread nD τ).loc main_arg0 ↦{fullShare} X main_arg0) : sProp 𝕄)
      ⊣⊢ iprop(((c : Thread nD τ).loc main_arg0 ↦{fullShare.left} X main_arg0) ∗ ((c : Thread nD τ).loc main_arg0 ↦{fullShare.right} X main_arg0)) :=
    pointsTo_share (PosShare.mem_left_op_right fullShare)
  refine ⟨?_, ?_⟩
  · iintro ⟨Ha, H0, H1, H2⟩
    ihave Ha := (hsh.1) $$ Ha
    icases Ha with ⟨Hl, Hr⟩
    isplitl [Hl]; · iexact Hl
    isplitl [Hr]; · iexact Hr
    isplitl [H0]; · iexact H0
    isplitl [H1]; · iexact H1
    iexact H2
  · iintro ⟨Hl, Hr, H0, H1, H2⟩
    isplitl [Hl Hr]
    · iapply (hsh.2)
      isplitl [Hl]; · iexact Hl
      iexact Hr
    isplitl [H0]; · iexact H0
    isplitl [H1]; · iexact H1
    iexact H2

/-! ## The buffer contents after the region and at the return -/

variable (m : (ℓ : Loc nD τ sig) → Buf (Elt F) ℓ) (ρ : Dev nD → PrngReg)

section Run

variable (dat : (c : Dev nD) → Pipeline.Dat τ (Elt F) Unit ℕ (UR sig nD τ) ℕ cfg0 c)

/-- At the region's exit: each window's array at what the pipeline leaves there (an input as entered, the output with
    its write-backs folded), every other buffer as entered. -/
def W2 (c : Dev nD) : Valuation τ sig (Elt F) :=
  Pipeline.withArrays spec0 c (W1 m c) fun w => (dat c).arrAt w cfg0.N
/-- After the four host operations that follow the region: the contents at the return. -/
abbrev W3 (c : Dev nD) : Valuation τ sig (Elt F) := StableHlo.after hostOps1 (W2 m dat c)

/-- Reading a valuation along an equation of references is reading it at the other end. -/
theorem cast_valuation (V : Valuation τ sig (Elt F)) {b b' : DevRef τ sig} (e : b' = b) :
    cast (congrArg (fun r : DevRef τ sig => r.ty.Contents (Elt F)) e) (V b') = V b := by
  subst e; rfl

/-- A family of array contents in which windows on one array agree is read back at every window's array: the
    override picks SOME window on that array, and any such window holds the same contents. -/
theorem withArrays_consistent (c : Dev nD) (V : Valuation τ sig (Elt F))
    (A : (w : Fin cfg0.W) → Buf (Elt F) ((spec0 w).arr.view.loc (c : Thread nD τ))) (w : Fin cfg0.W)
    (h : ∀ (w' : Fin cfg0.W) (e : Proc.devRef .tc (Pipeline.arrRef spec0 w') = Proc.devRef (τ := τ) .tc (Pipeline.arrRef spec0 w)),
      cast (congrArg (fun r : DevRef τ sig => r.ty.Contents (Elt F)) e) (A w') = A w) :
    Pipeline.withArrays spec0 c V A (Proc.devRef .tc (Pipeline.arrRef spec0 w)) = A w := by
  unfold Pipeline.withArrays
  have hex : ∃ w', Proc.devRef .tc (Pipeline.arrRef spec0 w') = Proc.devRef (τ := τ) .tc (Pipeline.arrRef spec0 w) := ⟨w, rfl⟩
  rw [dif_pos hex]
  exact h _ hex.choose_spec

/-- Windows 0 to 3 are inputs. -/
theorem isOut_of_ne : ∀ w : Fin cfg0.W, w ≠ 4 → (cfg0.win w).isOut = false := by decide
/-- The output window is the only one on its array. -/
theorem eq_four_of_arrRef : ∀ w w' : Fin cfg0.W, Pipeline.arrRef spec0 w' = Pipeline.arrRef spec0 w → (w' = 4 ↔ w = 4) := by decide

section
variable (hA : ∀ c w, (dat c).A w = V1 m c (Pipeline.arrRef spec0 w))
include hA

/-- An input window's array ends the region as it entered it: at the entry valuation. -/
theorem arrAt_in (c : Dev nD) (w : Fin cfg0.W) (hw : w ≠ 4) (t : ℕ) :
    (dat c).arrAt w t = W1 m c (Proc.devRef .tc (Pipeline.arrRef spec0 w)) :=
  ((dat c).arrAt_in w (isOut_of_ne w hw) t).trans (hA c w)

/-- At the region's exit every window's array holds what the pipeline leaves there: the two windows on the rows
    array are inputs and both leave it at the entry contents; the output window is alone on its array. -/
theorem W2_arr (c : Dev nD) (w : Fin cfg0.W) :
    W2 m dat c (Proc.devRef .tc (Pipeline.arrRef spec0 w)) = (dat c).arrAt w cfg0.N := by
  unfold W2
  refine withArrays_consistent c _ _ w fun w' e => ?_
  have e' : Pipeline.arrRef spec0 w' = Pipeline.arrRef spec0 w := Proc.devRef_injective _ e
  by_cases h4 : w = 4
  · obtain rfl : w' = w := ((eq_four_of_arrRef w w' e').mpr h4).trans h4.symm
    rfl
  · have h4' : w' ≠ 4 := fun h => h4 ((eq_four_of_arrRef w w' e').mp h)
    show cast _ ((dat c).arrAt w' cfg0.N) = (dat c).arrAt w cfg0.N
    rw [arrAt_in m dat hA c w h4, arrAt_in m dat hA c w' h4']
    exact cast_valuation (W1 m c) e
end

/-- A buffer that is no window's array leaves the region as it entered it. -/
theorem W2_of_ne (c : Dev nD) (b : Ref sig .tc) (hb : ∀ w, Pipeline.arrRef spec0 w ≠ b) :
    W2 m dat c (Proc.devRef .tc b) = W1 m c (Proc.devRef .tc b) := by
  unfold W2; exact Pipeline.withArrays_of_ne spec0 c _ _ b hb

/-! ### Reading the valuations back: the arguments end as launched, the output array at what the pipeline leaves -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that none of the two reshapes writes holds its launch contents when the region is entered. -/
theorem W1_of_not_written (c : Dev nD) (b : Ref sig .tc) (h0 : b ≠ main_v0) (h1 : b ≠ main_v1) :
    W1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- A buffer that none of the four host operations after the region writes holds at the return what the region left. -/
theorem W3_of_not_written (c : Dev nD) (b : Ref sig .tc) (h0 : b ≠ main_cst) (h1 : b ≠ main_v3) (h2 : b ≠ main_cst_0) (h3 : b ≠ main_v4) :
    W3 m dat c (Proc.devRef .tc b) = W2 m dat c (Proc.devRef .tc b) :=
  StableHlo.after_of_forall_not_mem (b := Proc.devRef .tc b) _ _ (List.forall_iff_forall_mem.mp (by
    simp only [hostOps1, List.Forall, StableHlo.nullary_writes, StableHlo.binary_writes, Finset.mem_singleton]
    exact ⟨StableHlo.devRef_ne_of_ne h0, StableHlo.devRef_ne_of_ne h1, StableHlo.devRef_ne_of_ne h2, StableHlo.devRef_ne_of_ne h3⟩))

section
variable (hA : ∀ c w, (dat c).A w = V1 m c (Pipeline.arrRef spec0 w))
include hA

/-- The rows array ends as launched: no host operation writes it, and the region only reads it. -/
theorem W3_main_arg0 (c : Dev nD) : W3 m dat c (Proc.devRef .tc main_arg0) = m ((c : Thread nD τ).loc main_arg0) :=
  calc W3 m dat c (Proc.devRef .tc main_arg0)
    _ = W2 m dat c (Proc.devRef .tc main_arg0) := W3_of_not_written m dat c main_arg0 (by decide) (by decide) (by decide) (by decide)
    _ = (dat c).arrAt 0 cfg0.N := W2_arr m dat hA c 0
    _ = W1 m c (Proc.devRef .tc main_arg0) := arrAt_in m dat hA c 0 (by decide) _
    _ = m ((c : Thread nD τ).loc main_arg0) := W1_of_not_written m c main_arg0 (by decide) (by decide)

/-- The output array holds at the region's exit what the pipeline's write-backs leave. -/
theorem W2_main_v2 (c : Dev nD) : W2 m dat c (Proc.devRef .tc main_v2) = (dat c).arrAt 4 cfg0.N := W2_arr m dat hA c 4
end

/-- The label vector ends as launched: no host operation writes it, and the region bypasses it. -/
theorem W3_main_arg1 (c : Dev nD) : W3 m dat c (Proc.devRef .tc main_arg1) = m ((c : Thread nD τ).loc main_arg1) :=
  calc W3 m dat c (Proc.devRef .tc main_arg1)
    _ = W2 m dat c (Proc.devRef .tc main_arg1) := W3_of_not_written m dat c main_arg1 (by decide) (by decide) (by decide) (by decide)
    _ = W1 m c (Proc.devRef .tc main_arg1) := W2_of_ne m dat c main_arg1 (by decide)
    _ = m ((c : Thread nD τ).loc main_arg1) := W1_of_not_written m c main_arg1 (by decide) (by decide)

/-! ## The proof data family, the thread state and the segments -/

/-- The prefetched tables' admissible contents: the pipeline has no table. -/
abbrev adm : (p : Fin 1) → (pcfgs (F := F) p).Adm := fun p => (cfgs p).toPCfg_adm
/-- The one pipeline's proof data, as a literal match, so that the pinned configuration at the numeral reduces to
    the printed one. -/
def pdats : (p : Fin 1) → (c : Dev nD) → Dat τ (Elt F) Unit ℕ (UR sig nD τ) ℕ (Pipeline.pin (pcfgs (F := F)) adm p) c
  | ⟨0, _⟩ => dat
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state (the region's invariant
    takes it in and gives it back) and the core owing nothing. -/
abbrev R (c : Dev nD) : sProp 𝕄 := iprop((∃ r, prngReg c r) ∗ ∃ W, owes (c : Thread nD τ) (0 : CellTallies nD τ sig Unit) W)
/-- A stretch of host operations as a segment over the unscoped buffers at a valuation, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state but for the tallies: every unscoped buffer at the return's contents, the generator register
    at some state. -/
abbrev Tₙ (c : Dev nD) : sProp 𝕄 := iprop(StableHlo.held (c : Thread nD τ) (Pipeline.ucRefs τ sig) (W3 m dat c) ∗ ∃ r, prngReg c r)

section Region

variable (hA : ∀ c w, (dat c).A w = V1 m c (Pipeline.arrRef spec0 w))
  (hq0 : ∀ c, (dat c).q 0 = fullShare.left) (hq1 : ∀ c, (dat c).q 1 = fullShare.right)
  (hq2 : ∀ c, (dat c).q 2 = fullShare) (hq3 : ∀ c, (dat c).q 3 = fullShare)

include hA hq0 hq1 hq2 hq3 in
/-- ENTRY, the buffers' part: every unscoped buffer at the entry valuation is the windows' arrays at the proof data's
    entry contents (the rows array's share cut in two) beside the buffers that bypass the region. -/
theorem entry_split (c : Dev nD) :
    (StableHlo.held (c : Thread nD τ) (Pipeline.ucRefs τ sig) (W1 m c) : sProp 𝕄)
      ⊢ iprop((dat c).arrays ((dat c).arrAt · 0) ∗ Pipeline.unscopedRest spec0 c (V1 m c)) := by
  rw [← Pipeline.unscopedBufs_held c (W1 m c), Pipeline.unscopedBufs_split₀ cfgs 0 winFacts₀0.arr_unscoped c]
  exact sep_mono (arrays_iff c (dat c) (hq0 c) (hq1 c) (hq2 c) (hq3 c) _ _ fun w => hA c w).1 .rfl

include hA hq0 hq1 hq2 hq3 in
/-- EXIT, the buffers' part: the windows' arrays at what the pipeline leaves (the rows array's halves joined) and the
    bypassing buffers as entered are every unscoped buffer at the exit valuation. -/
theorem exit_join (c : Dev nD) :
    (iprop((dat c).arrays ((dat c).arrAt · cfg0.N) ∗ Pipeline.unscopedRest spec0 c (V1 m c)) : sProp 𝕄)
      ⊢ StableHlo.held (c : Thread nD τ) (Pipeline.ucRefs τ sig) (W2 m dat c) := by
  rw [← Pipeline.unscopedBufs_held c (W2 m dat c), Pipeline.unscopedBufs_split₀ cfgs 0 winFacts₀0.arr_unscoped c]
  refine sep_mono (arrays_iff c (dat c) (hq0 c) (hq1 c) (hq2 c) (hq3 c) _ _ fun w => (W2_arr m dat hA c w).symm).2 (Entails.of_eq ?_)
  unfold Pipeline.unscopedRest
  exact bigSep_congr fun b hb => congrArg (fun f => (((c : Thread nD τ).loc b) ↦{fullShare} f : sProp 𝕄))
    (W2_of_ne m dat c b fun w e => (Finset.mem_sdiff.mp hb).2 (Finset.mem_image.mpr ⟨w, Finset.mem_univ _, e⟩)).symm

end Region

section Tallies

variable (howed : ∀ c t, (dat c).owed t = 0) (hrec : ∀ c t, (dat c).recorded t = Set.univ)

include howed hrec in
/-- ENTRY, the tallies: the core owing nothing is the proof data's tallies before the first point, the recorded
    pairs being unconstrained. -/
theorem owes_entry (c : Dev nD) :
    (iprop(∃ W, owes (c : Thread nD τ) (0 : CellTallies nD τ sig Unit) W) : sProp 𝕄) ⊢ (dat c).owesAt () 0 := by
  show _ ⊢ Pipeline.owesWithin c ((dat c).owed 0) ((dat c).bound () 0)
  rw [howed c 0]
  iintro ⟨%W, HO⟩; iexists W
  isplitr; · ipureintro; exact fun _ _ => Or.inl (by rw [hrec c 0]; trivial)
  iexact HO

include howed in
/-- EXIT, the tallies: after the last point the core owes nothing. -/
theorem owes_exit (c : Dev nD) :
    ((dat c).owesAt () (Fin.last cfg0.N) : sProp 𝕄) ⊢ iprop(∃ W, owes (c : Thread nD τ) (0 : CellTallies nD τ sig Unit) W) := by
  show Pipeline.owesWithin c ((dat c).owed (Fin.last cfg0.N)) ((dat c).bound () (Fin.last cfg0.N)) ⊢ _
  rw [howed c (Fin.last cfg0.N)]
  iintro ⟨%W, -, HO⟩; iexists W; iexact HO

end Tallies

section Launch

/-- The buffers that bypass the region, at the entry valuation. -/
abbrev Zr (c : Dev nD) : sProp 𝕄 :=
  Pipeline.unscopedRest (Ix := Unit) (Name := ℕ) (U := UR sig nD τ) (Lvl := ℕ) spec0 c (V1 m c)

/-- ENTRY: from every unscoped buffer at W1, the register and the core owing nothing — the windows' arrays at the
    entry contents, no table, the first tallies, the register for the invariant, the bypassing buffers. -/
theorem region_entry (hA : ∀ (c : Dev nD) (w : Fin cfg0.W), (dat c).A w = V1 m c (Pipeline.arrRef spec0 w))
    (hq0 : ∀ c : Dev nD, (dat c).q 0 = fullShare.left) (hq1 : ∀ c : Dev nD, (dat c).q 1 = fullShare.right)
    (hq2 : ∀ c : Dev nD, (dat c).q 2 = fullShare) (hq3 : ∀ c : Dev nD, (dat c).q 3 = fullShare)
    (howed : ∀ (c : Dev nD) (t : Fin (cfg0.N + 1)), (dat c).owed t = 0) (hrec : ∀ (c : Dev nD) (t : Fin (cfg0.N + 1)), (dat c).recorded t = Set.univ)
    (c : Dev nD) :
    (iprop((StableHlo.held (c : Thread nD τ) (Pipeline.ucRefs τ sig) (W1 m c) ∗ R c)
        ∗ Pipeline.ownSems0 (fun k : PEmpty => k.elim) c ∗ levAts L lv) : sProp 𝕄)
      ⊢ |={Set.univ}=> iprop((dat c).arrays ((dat c).arrAt · 0) ∗ Pipeline.prefHeld (pcfgs (F := F) 0).pre c (fun _ => fullShare) (adm (F := F) 0).1
          ∗ (dat c).owesAt () 0 ∗ (∃ r, prngReg c r) ∗ Zr m c) := by
  have hsplit := entry_split m dat hA hq0 hq1 hq2 hq3 c
  have htal := owes_entry dat howed hrec c
  iintro ⟨⟨Hub, Hp, HO⟩, -, -⟩
  ihave H := hsplit $$ Hub
  icases H with ⟨Ha, Hrest⟩
  ihave HO := htal $$ HO
  imodintro
  isplitl [Ha]; · iexact Ha
  isplitr
  · -- no prefetched table
    unfold Pipeline.prefHeld; rw [show (Finset.univ : Finset (Fin 0)) = ∅ from rfl, BI.bigSep_empty]; iempintro
  isplitl [HO]; · iexact HO
  isplitl [Hp]; · iexact Hp
  iexact Hrest

/-- The invariant at the first point, from the register and the scoped buffers no window stages. -/
theorem region_in (hin : ∀ c : Dev nD, (Pipeline.ΦA spec0 c : sProp 𝕄) ⊢ (dat c).Φ 0) (c : Dev nD) :
    (iprop((∃ r, prngReg c r) ∗ Pipeline.prefHeld (pcfgs (F := F) 0).pre c (fun _ => fullShare) (adm (F := F) 0).1
        ∗ Pipeline.scopedRest spec0 c) : sProp 𝕄) ⊢ (dat c).Φ 0 := by
  have h : (iprop((∃ r, prngReg c r) ∗ Pipeline.prefHeld (pcfgs (F := F) 0).pre c (fun _ => fullShare) (adm (F := F) 0).1
      ∗ Pipeline.scopedRest spec0 c) : sProp 𝕄) ⊢ (Pipeline.ΦA spec0 c : sProp 𝕄) := by
    -- no prefetched table
    unfold Pipeline.ΦA Pipeline.prefHeld
    rw [show (Finset.univ : Finset (Fin 0)) = ∅ from rfl, BI.bigSep_empty]
    iintro ⟨Hp, -, Hr⟩
    isplitl [Hr]; · iexact Hr
    iexact Hp
  exact h.trans (hin c)

/-- The invariant at the last point gives the register and those scoped buffers back. -/
theorem region_out (hout : ∀ c : Dev nD, (dat c).Φ (Fin.last cfg0.N) ⊢ (Pipeline.ΦA spec0 c : sProp 𝕄)) (c : Dev nD) :
    (dat c).Φ (Fin.last cfg0.N)
      ⊢ (iprop((∃ r, prngReg c r) ∗ Pipeline.ownSems0 (fun k : PEmpty => k.elim) c ∗ Pipeline.scopedRest spec0 c) : sProp 𝕄) := by
  have h : (Pipeline.ΦA spec0 c : sProp 𝕄)
      ⊢ (iprop((∃ r, prngReg c r) ∗ Pipeline.ownSems0 (fun k : PEmpty => k.elim) c ∗ Pipeline.scopedRest spec0 c) : sProp 𝕄) := by
    rw [Pipeline.ownSems0_none]
    unfold Pipeline.ΦA
    iintro ⟨Hr, Hp⟩
    isplitl [Hp]; · iexact Hp
    isplitr; · iempintro
    iexact Hr
  exact (hout c).trans h

/-- EXIT: the windows' arrays at what the pipeline leaves, the last tallies, the register and the bypassing buffers
    are every unscoped buffer at W2, the register and the core owing nothing. -/
theorem region_exit (hA : ∀ (c : Dev nD) (w : Fin cfg0.W), (dat c).A w = V1 m c (Pipeline.arrRef spec0 w))
    (hq0 : ∀ c : Dev nD, (dat c).q 0 = fullShare.left) (hq1 : ∀ c : Dev nD, (dat c).q 1 = fullShare.right)
    (hq2 : ∀ c : Dev nD, (dat c).q 2 = fullShare) (hq3 : ∀ c : Dev nD, (dat c).q 3 = fullShare)
    (howed : ∀ (c : Dev nD) (t : Fin (cfg0.N + 1)), (dat c).owed t = 0) (c : Dev nD) :
    (iprop((dat c).arrays ((dat c).arrAt · cfg0.N) ∗ (dat c).owesAt () (Fin.last cfg0.N) ∗ (∃ r, prngReg c r) ∗ Zr m c) : sProp 𝕄)
      ⊢ |={Set.univ}=> iprop(StableHlo.held (c : Thread nD τ) (Pipeline.ucRefs τ sig) (W2 m dat c) ∗ R c) := by
  have hjoin := exit_join m dat hA hq0 hq1 hq2 hq3 c
  have htal := owes_exit dat howed c
  iintro ⟨Ha, HO, HY, Hrest⟩
  ihave HO := htal $$ HO
  imodintro
  isplitl [Ha Hrest]
  · iapply hjoin; isplitl [Ha] <;> iassumption
  isplitl [HY]; · iexact HY
  iexact HO

-- the library's fields are stated over the pinned configuration, which unifies with the printed one only when
-- unification may unfold plain definitions in a metavariable's type
set_option backward.isDefEq.respectTransparency.types false in
/-- THE REGION over the thread state: entered from every unscoped buffer at W1, left at W2. Its arrays are sorted out
    of the unscoped buffers with the rows array's share cut in two, and put back with the halves joined; the generator
    register goes into the invariant and comes back; nothing is owed; the kernel has no semaphore of its own. -/
def reg0 (hA : ∀ (c : Dev nD) (w : Fin cfg0.W), (dat c).A w = V1 m c (Pipeline.arrRef spec0 w))
    (hq0 : ∀ c : Dev nD, (dat c).q 0 = fullShare.left) (hq1 : ∀ c : Dev nD, (dat c).q 1 = fullShare.right)
    (hq2 : ∀ c : Dev nD, (dat c).q 2 = fullShare) (hq3 : ∀ c : Dev nD, (dat c).q 3 = fullShare)
    (howed : ∀ (c : Dev nD) (t : Fin (cfg0.N + 1)), (dat c).owed t = 0) (hrec : ∀ (c : Dev nD) (t : Fin (cfg0.N + 1)), (dat c).recorded t = Set.univ)
    (hbody : ∀ c : Dev nD, Pipeline.BodyObligationLoose (dat c) (defs₀ (F := F)) Variants.none () Set.univ)
    (hin : ∀ c : Dev nD, (Pipeline.ΦA spec0 c : sProp 𝕄) ⊢ (dat c).Φ 0)
    (hout : ∀ c : Dev nD, (dat c).Φ (Fin.last cfg0.N) ⊢ (Pipeline.ΦA spec0 c : sProp 𝕄)) :
    Pipeline.RegionSeg (pcfgs (F := F)) adm (pdats dat) () defs₀ 𝒱₀ L lv 0 where
  win := winFacts₀0
  block_pos := block_pos0
  stage_whole := stage_whole0
  K := PEmpty
  osem k := k.elim
  ho := Pipeline.OwnSemFacts.none _
  hbody := hbody
  hwaits := Pipeline.hwaits_of_owed_zero _ _ _ _ L lv 0 howed
  pre c := iprop(StableHlo.held (c : Thread nD τ) (Pipeline.ucRefs τ sig) (W1 m c) ∗ R c)
  post c := iprop(StableHlo.held (c : Thread nD τ) (Pipeline.ucRefs τ sig) (W2 m dat c) ∗ R c)
  X c := iprop(∃ r, prngReg c r)
  Y c := iprop(∃ r, prngReg c r)
  Z c := Zr m c
  hentry := region_entry m dat hA hq0 hq1 hq2 hq3 howed hrec
  hin := region_in dat hin
  hout := region_out dat hout
  hexit := region_exit m dat hA hq0 hq1 hq2 hq3 howed

/-- @main's three segments in order: the two reshapes from the launch contents, the region, the four host operations
    from the region's exit contents. -/
abbrev segs (hA : ∀ (c : Dev nD) (w : Fin cfg0.W), (dat c).A w = V1 m c (Pipeline.arrRef spec0 w))
    (hq0 : ∀ c : Dev nD, (dat c).q 0 = fullShare.left) (hq1 : ∀ c : Dev nD, (dat c).q 1 = fullShare.right)
    (hq2 : ∀ c : Dev nD, (dat c).q 2 = fullShare) (hq3 : ∀ c : Dev nD, (dat c).q 3 = fullShare)
    (howed : ∀ (c : Dev nD) (t : Fin (cfg0.N + 1)), (dat c).owed t = 0) (hrec : ∀ (c : Dev nD) (t : Fin (cfg0.N + 1)), (dat c).recorded t = Set.univ)
    (hbody : ∀ c : Dev nD, Pipeline.BodyObligationLoose (dat c) (defs₀ (F := F)) Variants.none () Set.univ)
    (hin : ∀ c : Dev nD, (Pipeline.ΦA spec0 c : sProp 𝕄) ⊢ (dat c).Φ 0)
    (hout : ∀ c : Dev nD, (dat c).Φ (Fin.last cfg0.N) ⊢ (Pipeline.ΦA spec0 c : sProp 𝕄)) :
    List (Pipeline.Seg (pcfgs (F := F)) adm (pdats dat) () defs₀ 𝒱₀ L lv) :=
  [ .host (hseg hostOps0 hostOps0_sub hostOps0_fresh (W0 m)),
    .region (reg0 m dat hA hq0 hq1 hq2 hq3 howed hrec hbody hin hout),
    .host (hseg hostOps1 hostOps1_sub hostOps1_fresh (W2 m dat)) ]

/-- @main IS the run of the segments. -/
theorem main_run (hA : ∀ (c : Dev nD) (w : Fin cfg0.W), (dat c).A w = V1 m c (Pipeline.arrRef spec0 w))
    (hq0 : ∀ c : Dev nD, (dat c).q 0 = fullShare.left) (hq1 : ∀ c : Dev nD, (dat c).q 1 = fullShare.right)
    (hq2 : ∀ c : Dev nD, (dat c).q 2 = fullShare) (hq3 : ∀ c : Dev nD, (dat c).q 3 = fullShare)
    (howed : ∀ (c : Dev nD) (t : Fin (cfg0.N + 1)), (dat c).owed t = 0) (hrec : ∀ (c : Dev nD) (t : Fin (cfg0.N + 1)), (dat c).recorded t = Set.univ)
    (hbody : ∀ c : Dev nD, Pipeline.BodyObligationLoose (dat c) (defs₀ (F := F)) Variants.none () Set.univ)
    (hin : ∀ c : Dev nD, (Pipeline.ΦA spec0 c : sProp 𝕄) ⊢ (dat c).Φ 0)
    (hout : ∀ c : Dev nD, (dat c).Φ (Fin.last cfg0.N) ⊢ (Pipeline.ΦA spec0 c : sProp 𝕄)) (c : Dev nD) :
    main (F := F) c = Pipeline.Seg.run (segs m dat hA hq0 hq1 hq2 hq3 howed hrec hbody hin hout) :=
  main_segs adm (pdats dat) () 𝒱₀ L lv _ _ _ rfl rfl c

end Launch

section Final

-- the launch theorem's implicit arguments are found by unifying its conclusion with this one, which takes unfolding
-- plain definitions in a metavariable's type
set_option backward.isDefEq.respectTransparency.types false in
/-- THE LAUNCH: from any memory with every counter at zero, every weakly fair execution of @main on the TensorCore
    terminates, nothing faulting, and the final memory holds at every unscoped buffer the return's contents W3 — over
    any proof data of the region that reads its input arrays off the entry valuation, holds the rows array's share as
    the two halves, owes nothing, and whose invariant is entered from and left into the generator register beside the
    scoped buffers no window stages. -/
theorem run_of (hA : ∀ (c : Dev nD) (w : Fin cfg0.W), (dat c).A w = V1 m c (Pipeline.arrRef spec0 w))
    (hq0 : ∀ c : Dev nD, (dat c).q 0 = fullShare.left) (hq1 : ∀ c : Dev nD, (dat c).q 1 = fullShare.right)
    (hq2 : ∀ c : Dev nD, (dat c).q 2 = fullShare) (hq3 : ∀ c : Dev nD, (dat c).q 3 = fullShare)
    (howed : ∀ (c : Dev nD) (t : Fin (cfg0.N + 1)), (dat c).owed t = 0) (hrec : ∀ (c : Dev nD) (t : Fin (cfg0.N + 1)), (dat c).recorded t = Set.univ)
    (hbody : ∀ c : Dev nD, Pipeline.BodyObligationLoose (dat c) (defs₀ (F := F)) Variants.none () Set.univ)
    (hin : ∀ c : Dev nD, (Pipeline.ΦA spec0 c : sProp 𝕄) ⊢ (dat c).Φ 0)
    (hout : ∀ c : Dev nD, (dat c).Φ (Fin.last cfg0.N) ⊢ (Pipeline.ΦA spec0 c : sProp 𝕄)) :
    θ_run defs (onTc (τ := τ) (main (F := F))) ⟨m, fun _ => 0, ρ⟩
      (fun r => ∀ c : Dev nD, ∀ b ∈ Pipeline.ucRefs τ sig, r.2.mem ((c : Thread nD τ).1, b) = W3 m dat c b) :=
  Pipeline.θ_run_regions_kit (pcfgs (F := F)) adm (pdats dat) () cellOf_inj emb₁ defs₀ 𝒱₀ L lv m ρ main
    (segs m dat hA hq0 hq1 hq2 hq3 howed hrec hbody hin hout)
    (fun c Q => by rw [main_run m dat hA hq0 hq1 hq2 hq3 howed hrec hbody hin hout c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element IS the pipeline library's; no other ghost resource is dealt
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dat)
    (hch := ⟨fun _ => .rfl, fun _ => .rfl, fun _ => .rfl, fun c => by
      -- the last host stretch leaves the buffers at W3 beside the register and the tallies: regroup
      show (iprop(StableHlo.held (c : Thread nD τ) (Pipeline.ucRefs τ sig) (W3 m dat c) ∗ R c) : sProp 𝕄)
        ⊢ iprop(Tₙ m dat c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m dat c b)
    (hfin := fun c s' => by
      iintro ⟨⟨Hh, -⟩, HSI⟩
      unfold StableHlo.held
      imodintro
      iapply (pointsTo_read_all (Pipeline.ucRefs τ sig) (fun b => (((c : Thread nD τ)).1, b)) (W3 m dat c) s')
      isplitl [Hh] <;> iassumption)
    (hQ := fun s h c => h c)

end Final

end Run

end Cert.Kernel.Hand

end
-- ==== Proof.K.Frame.lean ====
/-
  The run of the whole program at the proof data of the one region, and the frame claim.

  Every weakly fair execution terminates; in every final state each unscoped buffer holds what the last stretch of host
  operations leaves, computed from the region's exit contents; the two argument arrays hold their launch contents,
  since no host operation writes them and the region only reads them.
-/
import proofs.«111649_j5815385719271_1_alg».proof.Proof.K.Data
import proofs.«111649_j5815385719271_1_alg».proof.Proof.K.Launch

noncomputable section

namespace Cert.Kernel.Hand

open Idealize.ShloMosaic Idealize.ShloMosaic.TcCoe
open Idealize.SL Idealize.SL.RA Idealize.SL.BI
open scoped Idealize.SL.BI
open Idealize.SL.Sem
open Idealize.ShloMosaic.Rounds
open Cert.Kernel Cert.Kernel.Gen

variable {F : FTy → Type} [FloatOps F]

variable (m : (ℓ : Loc nD τ sig) → Buf (Elt F) ℓ) (ρ : Dev nD → PrngReg)

/-- The program's run, every unscoped buffer read at the end. -/
theorem run_main : θ_run defs (onTc (τ := τ) (main (F := F))) ⟨m, fun _ => 0, ρ⟩
    (fun r => ∀ c : Dev nD, ∀ b ∈ Pipeline.ucRefs τ sig, r.2.mem ((c : Thread nD τ).1, b) = W3 m (dat m) c b) :=
  run_of m ρ (dat m) (A_eq m) (fun _ => rfl) (fun _ => rfl) (fun _ => rfl) (fun _ => rfl) (fun _ _ => rfl) (fun _ _ => rfl)
    (fun c => (body_obligation m c).loose) (hin m) (hout m)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_arg0 (by decide))).trans (W3_main_arg0 m (dat m) (A_eq m) c),
       (h c _ (mem_uc main_arg1 (by decide))).trans (W3_main_arg1 m (dat m) c)⟩)
    (run_main m ρ)

end Cert.Kernel.Hand

end
-- ==== Proof.KI.Entry.lean ====
/-
  The contents of the unscoped buffers when the one kernel region is entered.

  The program first reshapes the label vector to a column [8192,1] and to a row [1,8192]; the region then reads
  the rows array twice (through a row-block window and a column-block window), the two reshaped label arrays, and
  writes the per-row sums.  W0 is the launch memory read as a valuation, W1 the valuation after the two reshapes,
  V1 the same read at the core's own references: what the region's windows find in their arrays.
-/
import proofs.«111649_j5815385719271_1_alg».proof.Proof.Gen.KernelIdeal.Launch
import Idealize.ShloMosaic.Lib.Pipeline.Frame

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- The launch memory of core c, as a valuation of its buffers. -/
abbrev W0 (c : Dev nD) : Valuation τ sig (Elt F) := fun b => m (c, b)
/-- After the two reshapes of the labels. -/
abbrev W1 (c : Dev nD) : Valuation τ sig (Elt F) := StableHlo.after hostOps0 (W0 m c)
/-- The same read at the core's own references: what the region's windows find. -/
abbrev V1 (c : Dev nD) (b : Ref sig .tc) : Buf (Elt F) ((c : Thread nD τ).loc b) := W1 m c (Proc.devRef .tc b)

/-- Neither stretch of host operations allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

end Cert.KernelIdeal.Hand

end
-- ==== Proof.KI.Setup.lean ====
/-
  What the runs of the kernel body and the proof data share.

  The grid has 8 × 8 points, point t = 8·i + j.  The body resets its [1024,1] scratch when j = 0 (condition
  `atFirst`), adds the tile's row sums to it at every point, and copies it to the output block when j = 7
  (condition `atLast`).  Both conditions are decided over the 64 points in closed form.  An input window's current
  staging buffer holds the window's block of its array at every point, fetched there or carried over; the output
  window is idle (untouched, not written back) except at the points with j = 7.
-/
import proofs.«111649_j5815385719271_1_alg».proof.Proof.KI.Entry
import proofs.«111649_j5815385719271_1_alg».proof.Proof.Gen.KernelIdeal.Skeleton
import proofs.«111649_j5815385719271_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- An input window's current buffer holds its block at every point, whether the point fetches it or an earlier one
    did: the index map has not moved since, and the body leaves the buffer as it found it. Stated for any proof data
    over the entry contents, one window at a time. -/
theorem before_rows_of {c : Dev nD} (dat : Dat τ (Elt F) Unit ℕ (UR sig nD τ) ℕ cfg0 c) (hA : dat.A 0 = V1 m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_cols_of {c : Dev nD} (dat : Dat τ (Elt F) Unit ℕ (UR sig nD τ) ℕ cfg0 c) (hA : dat.A 1 = V1 m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_rowLabels_of {c : Dev nD} (dat : Dat τ (Elt F) Unit ℕ (UR sig nD τ) ℕ cfg0 c) (hA : dat.A 2 = V1 m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_colLabels_of {c : Dev nD} (dat : Dat τ (Elt F) Unit ℕ (UR sig nD τ) ℕ cfg0 c) (hA : dat.A 3 = V1 m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, over the grid -/

/-- The scratch is reset: the column coordinate j is 0 (the body's scalar chain, substituted). -/
abbrev atFirst (i : grid0.Coords) : Prop := (Scalar.cmpi .ne (Scalar.extui (Scalar.cmpi .eq (BitVec.ofNat 32 (i 1).val) 0#32)) 0#32) = 1#1
/-- It holds at the points 8·i. -/
theorem atFirst_iff : ∀ t : Fin cfg0.N, atFirst (grid0.coords t) ↔ t.val % 8 = 0 :=
  (by decide +kernel : ∀ t : Fin grid0.N, atFirst (grid0.coords t) ↔ t.val % 8 = 0)

/-- The output block is stored: j is 7. -/
abbrev atLast (i : grid0.Coords) : Prop := k0_cond2 i = 1#1
/-- It holds at the points 8·i + 7. -/
theorem atLast_iff : ∀ t : Fin cfg0.N, atLast (grid0.coords t) ↔ t.val % 8 = 7 :=
  (by decide +kernel : ∀ t : Fin grid0.N, atLast (grid0.coords t) ↔ t.val % 8 = 7)

/-! ## Where the windows are idle -/

theorem live_rows : ∀ t : Fin cfg0.N, cfg0.idle 0 (grid0.coords t) = false := by decide +kernel
theorem live_cols : ∀ t : Fin cfg0.N, cfg0.idle 1 (grid0.coords t) = false := by decide +kernel
theorem live_rowLabels : ∀ t : Fin cfg0.N, cfg0.idle 2 (grid0.coords t) = false := by decide +kernel
theorem live_colLabels : ∀ t : Fin cfg0.N, cfg0.idle 3 (grid0.coords t) = false := by decide +kernel
/-- Away from j = 7 the output window is idle and its block is not written back. -/
theorem idle_out : ∀ t : Fin cfg0.N, ¬atLast (grid0.coords t) → cfg0.idle 4 (grid0.coords t) = true := by decide +kernel
theorem noFlush_out : ∀ t : Fin cfg0.N, ¬atLast (grid0.coords t) → (cfg0.win 4).flush t = false := by decide +kernel
/-- At j = 7 it is live. -/
theorem live_out : ∀ t : Fin cfg0.N, atLast (grid0.coords t) → cfg0.idle 4 (grid0.coords t) = false := by decide +kernel

/-! ## The memrefs the body is called with -/

/-- One staging buffer of the output window, through which its contents are stated. -/
abbrev VO : View sig .tc .vmem S1024x1 .f32 := (Memref.whole cc0_stg4_0 : Memref sig .tc .vmem S1024x1 .f32).view
abbrev ms_rows (t : Fin cfg0.N) : Memref sig .tc .vmem S1024x256 .f32 := win0_0.stage (cfg0.slots t 0)
abbrev hs_rows (t : Fin cfg0.N) : (ms_rows t).IsWhole := hstage0_0 ((cfg0.slots t 0).cast nbuf0_0)
abbrev ms_cols (t : Fin cfg0.N) : Memref sig .tc .vmem S1024x256 .f32 := win0_1.stage (cfg0.slots t 1)
abbrev hs_cols (t : Fin cfg0.N) : (ms_cols t).IsWhole := hstage0_1 ((cfg0.slots t 1).cast nbuf0_1)
abbrev ms_rowLabels (t : Fin cfg0.N) : Memref sig .tc .vmem S1024x1 .i32 := win0_2.stage (cfg0.slots t 2)
abbrev hs_rowLabels (t : Fin cfg0.N) : (ms_rowLabels t).IsWhole := hstage0_2 ((cfg0.slots t 2).cast nbuf0_2)
abbrev ms_colLabels (t : Fin cfg0.N) : Memref sig .tc .vmem S1x1024 .i32 := win0_3.stage (cfg0.slots t 3)
abbrev hs_colLabels (t : Fin cfg0.N) : (ms_colLabels t).IsWhole := hstage0_3 ((cfg0.slots t 3).cast nbuf0_3)
abbrev ms_out (t : Fin cfg0.N) : Memref sig .tc .vmem S1024x1 .f32 := win0_4.stage (cfg0.slots t 4)
abbrev hs_out (t : Fin cfg0.N) : (ms_out t).IsWhole := hstage0_4 ((cfg0.slots t 4).cast nbuf0_4)
/-- The running-sum scratch, a whole scoped buffer of the kernel's own, and its view. -/
abbrev accM : Memref sig .tc .vmem S1024x1 .f32 := Memref.whole cc0_scratch0
abbrev VS : View sig .tc .vmem S1024x1 .f32 := (accM).view

/-- The region's plain invariant, with the scratch as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.KI.RunFirst.lean ====
/-
  The kernel body at a point where the running sum is RESET (column coordinate 0) and the output block is not stored.

  On whole staging memrefs holding the four input blocks, the output's buffer at anything (it is handed back
  untouched) and the scratch at anything, the body runs to its end, the inputs as they were and the scratch with the
  pieces its two stores wrote: the zero vector first, then the tile's row sums added to what was read back.
-/
import proofs.«111649_j5815385719271_1_alg».proof.Proof.KI.Setup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the scratch ends with at a resetting point, with the proof that the body runs to them. -/
noncomputable def tileRun_first (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : atFirst i) (hc1 : ¬atLast i)
    (x0 x1 : Vec F S1024x256 .f32) (x2 : Vec F S1024x1 .i32) (x3 : Vec F S1x1024 .i32) :
    Σ' (L4 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨[], ?_, fun xi E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    iexists _; iexact HS

end Cert.KernelIdeal.Hand

end
-- ==== Proof.KI.RunMid.lean ====
/-
  The kernel body at a point that neither resets the running sum nor stores the output block (column coordinate 1 to 6).

  The scratch holds what the point before left; the body reads it, adds the tile's row sums and stores it back whole.
-/
import proofs.«111649_j5815385719271_1_alg».proof.Proof.KI.RunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the scratch ends with at an inner point, over the contents xs the point before left. -/
noncomputable def tileRun_mid (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : ¬atLast i)
    (x0 x1 : Vec F S1024x256 .f32) (x2 : Vec F S1024x1 .i32) (x3 : Vec F S1x1024 .i32) (xs : Vec F S1024x1 .f32) :
    Σ' (L4 : List (View.Piece (Elt F) S1024x1 .f32)), { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨[], ?_, fun xi E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    iexists _; iexact HS

end Cert.KernelIdeal.Hand

end
-- ==== Proof.KI.RunLast.lean ====
/-
  The kernel body at a point that stores the output block (column coordinate 7).

  The scratch holds what the point before left; the body adds the tile's row sums, stores the scratch back whole,
  reads it again and stores that into the output's buffer, which it found at anything.
-/
import proofs.«111649_j5815385719271_1_alg».proof.Proof.KI.RunMid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the output's buffer and the scratch end with at a storing point, over the contents xs the point before left. -/
noncomputable def tileRun_last (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : atLast i)
    (x0 x1 : Vec F S1024x256 .f32) (x2 : Vec F S1024x1 .i32) (x3 : Vec F S1x1024 .i32) (xs : Vec F S1024x1 .f32) :
    Σ' (L4 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.KI.Data.lean ====
/-
  The proof data of the one pipeline, and the body obligation at every point.

  accAt n is what the running-sum scratch holds after the body at point n: at a point with column coordinate 0 the
  resetting run's result, otherwise the adding run's result over what point n − 1 left.  The output's buffer holds, at
  a point with column coordinate 7, what the storing run wrote; at the other points it is idle and nothing reads it.
  The invariant before point n > 0 is the scratch at accAt (n − 1) beside the generator register; before the first
  point it is the region's plain invariant (the scratch at anything).  The rows array is read through two windows,
  which hold it at the two halves of the full share.
-/
import proofs.«111649_j5815385719271_1_alg».proof.Proof.KI.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What each run leaves, read back -/

theorem accCover_first (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : atFirst i) (hc1 : ¬atLast i) (x0 x1 : Vec F S1024x256 .f32) (x2 : Vec F S1024x1 .i32) (x3 : Vec F S1x1024 .i32) (y : S1024x1.Idx) :
    ∃ pc ∈ (tileRun_first c i arg2 harg2 arg3 harg3 arg4 harg4 arg5 harg5 arg6 harg6 arg7 harg7 hc0 hc1 x0 x1 x2 x3).2.1, y ∈ pc.1.set :=
  View.cover_of_tiledL (tileRun_first c i arg2 harg2 arg3 harg3 arg4 harg4 arg5 harg5 arg6 harg6 arg7 harg7 hc0 hc1 x0 x1 x2 x3).2.1 S1024x1.size (by sl_kernel_rfl) y
/-- The scratch after a resetting point. -/
def accAfter_first (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : atFirst i) (hc1 : ¬atLast i) (x0 x1 : Vec F S1024x256 .f32) (x2 : Vec F S1024x1 .i32) (x3 : Vec F S1x1024 .i32) : Vec F S1024x1 .f32 :=
  VS.read (Elt F) (VS.writes (Elt F) VS.junk (tileRun_first c i arg2 harg2 arg3 harg3 arg4 harg4 arg5 harg5 arg6 harg6 arg7 harg7 hc0 hc1 x0 x1 x2 x3).2.1)

theorem accCover_mid (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : ¬atLast i) (x0 x1 : Vec F S1024x256 .f32) (x2 : Vec F S1024x1 .i32) (x3 : Vec F S1x1024 .i32) (xs : Vec F S1024x1 .f32) (y : S1024x1.Idx) :
    ∃ pc ∈ (tileRun_mid c i arg2 harg2 arg3 harg3 arg4 harg4 arg5 harg5 arg6 harg6 arg7 harg7 hc0 hc1 x0 x1 x2 x3 xs).2.1, y ∈ pc.1.set :=
  View.cover_of_tiledL (tileRun_mid c i arg2 harg2 arg3 harg3 arg4 harg4 arg5 harg5 arg6 harg6 arg7 harg7 hc0 hc1 x0 x1 x2 x3 xs).2.1 S1024x1.size (by sl_kernel_rfl) y
/-- The scratch after an inner point, over what the point before left. -/
def accAfter_mid (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : ¬atLast i) (x0 x1 : Vec F S1024x256 .f32) (x2 : Vec F S1024x1 .i32) (x3 : Vec F S1x1024 .i32) (xs : Vec F S1024x1 .f32) : Vec F S1024x1 .f32 :=
  VS.read (Elt F) (VS.writes (Elt F) VS.junk (tileRun_mid c i arg2 harg2 arg3 harg3 arg4 harg4 arg5 harg5 arg6 harg6 arg7 harg7 hc0 hc1 x0 x1 x2 x3 xs).2.1)

theorem accCover_last (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : atLast i) (x0 x1 : Vec F S1024x256 .f32) (x2 : Vec F S1024x1 .i32) (x3 : Vec F S1x1024 .i32) (xs : Vec F S1024x1 .f32) (y : S1024x1.Idx) :
    ∃ pc ∈ (tileRun_last c i arg2 harg2 arg3 harg3 arg4 harg4 arg5 harg5 arg6 harg6 arg7 harg7 hc0 hc1 x0 x1 x2 x3 xs).2.1, y ∈ pc.1.set :=
  View.cover_of_tiledL (tileRun_last c i arg2 harg2 arg3 harg3 arg4 harg4 arg5 harg5 arg6 harg6 arg7 harg7 hc0 hc1 x0 x1 x2 x3 xs).2.1 S1024x1.size (by sl_kernel_rfl) y
/-- The scratch after a storing point, over what the point before left. -/
def accAfter_last (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : atLast i) (x0 x1 : Vec F S1024x256 .f32) (x2 : Vec F S1024x1 .i32) (x3 : Vec F S1x1024 .i32) (xs : Vec F S1024x1 .f32) : Vec F S1024x1 .f32 :=
  VS.read (Elt F) (VS.writes (Elt F) VS.junk (tileRun_last c i arg2 harg2 arg3 harg3 arg4 harg4 arg5 harg5 arg6 harg6 arg7 harg7 hc0 hc1 x0 x1 x2 x3 xs).2.1)

theorem outCover_last (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : atLast i) (x0 x1 : Vec F S1024x256 .f32) (x2 : Vec F S1024x1 .i32) (x3 : Vec F S1x1024 .i32) (xs : Vec F S1024x1 .f32) (y : S1024x1.Idx) :
    ∃ pc ∈ (tileRun_last c i arg2 harg2 arg3 harg3 arg4 harg4 arg5 harg5 arg6 harg6 arg7 harg7 hc0 hc1 x0 x1 x2 x3 xs).1, y ∈ pc.1.set :=
  View.cover_of_tiledL (tileRun_last c i arg2 harg2 arg3 harg3 arg4 harg4 arg5 harg5 arg6 harg6 arg7 harg7 hc0 hc1 x0 x1 x2 x3 xs).1 S1024x1.size (by sl_kernel_rfl) y
/-- The output's buffer after a storing point. -/
def outAfter_last (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : atLast i) (x0 x1 : Vec F S1024x256 .f32) (x2 : Vec F S1024x1 .i32) (x3 : Vec F S1x1024 .i32) (xs : Vec F S1024x1 .f32) : Vec F S1024x1 .f32 :=
  VO.read (Elt F) (VO.writes (Elt F) VO.junk (tileRun_last c i arg2 harg2 arg3 harg3 arg4 harg4 arg5 harg5 arg6 harg6 arg7 harg7 hc0 hc1 x0 x1 x2 x3 xs).1)

/-! ## The running sum, point by point -/

theorem N_lt {n : ℕ} (hn : n < cfg0.N) : n < 64 := lt_of_lt_of_eq hn (show cfg0.N = 64 from N_0)

/-- What the scratch holds after the body at point n. -/
def accAt (c : Dev nD) : (n : ℕ) → n < cfg0.N → Vec F S1024x1 .f32
  | 0, hn => accAfter_first c (grid0.coords ⟨0, hn⟩) (ms_rows ⟨0, hn⟩) (hs_rows ⟨0, hn⟩) (ms_cols ⟨0, hn⟩) (hs_cols ⟨0, hn⟩) (ms_rowLabels ⟨0, hn⟩) (hs_rowLabels ⟨0, hn⟩) (ms_colLabels ⟨0, hn⟩) (hs_colLabels ⟨0, hn⟩) (ms_out ⟨0, hn⟩) (hs_out ⟨0, hn⟩) accM (Memref.isWhole_whole _) ((atFirst_iff ⟨0, hn⟩).mpr (Nat.zero_mod _)) (fun h => (fun h => by (try dsimp only at h); omega) ((atLast_iff ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 8 = 0 then
      accAfter_first c (grid0.coords ⟨n + 1, hn⟩) (ms_rows ⟨n + 1, hn⟩) (hs_rows ⟨n + 1, hn⟩) (ms_cols ⟨n + 1, hn⟩) (hs_cols ⟨n + 1, hn⟩) (ms_rowLabels ⟨n + 1, hn⟩) (hs_rowLabels ⟨n + 1, hn⟩) (ms_colLabels ⟨n + 1, hn⟩) (hs_colLabels ⟨n + 1, hn⟩) (ms_out ⟨n + 1, hn⟩) (hs_out ⟨n + 1, hn⟩) accM (Memref.isWhole_whole _) ((atFirst_iff ⟨n + 1, hn⟩).mpr h0) (fun h => (fun h => by (try dsimp only at h); omega) ((atLast_iff ⟨n + 1, hn⟩).mp h)) (iblk m c 0 ⟨n + 1, hn⟩) (iblk m c 1 ⟨n + 1, hn⟩) (iblk m c 2 ⟨n + 1, hn⟩) (iblk m c 3 ⟨n + 1, hn⟩)
    else if h1 : (n + 1) % 8 = 7 then
      accAfter_last c (grid0.coords ⟨n + 1, hn⟩) (ms_rows ⟨n + 1, hn⟩) (hs_rows ⟨n + 1, hn⟩) (ms_cols ⟨n + 1, hn⟩) (hs_cols ⟨n + 1, hn⟩) (ms_rowLabels ⟨n + 1, hn⟩) (hs_rowLabels ⟨n + 1, hn⟩) (ms_colLabels ⟨n + 1, hn⟩) (hs_colLabels ⟨n + 1, hn⟩) (ms_out ⟨n + 1, hn⟩) (hs_out ⟨n + 1, hn⟩) accM (Memref.isWhole_whole _) (fun h => h0 ((atFirst_iff ⟨n + 1, hn⟩).mp h)) ((atLast_iff ⟨n + 1, hn⟩).mpr h1) (iblk m c 0 ⟨n + 1, hn⟩) (iblk m c 1 ⟨n + 1, hn⟩) (iblk m c 2 ⟨n + 1, hn⟩) (iblk m c 3 ⟨n + 1, hn⟩) (accAt c n (Nat.lt_of_succ_lt hn))
    else
      accAfter_mid c (grid0.coords ⟨n + 1, hn⟩) (ms_rows ⟨n + 1, hn⟩) (hs_rows ⟨n + 1, hn⟩) (ms_cols ⟨n + 1, hn⟩) (hs_cols ⟨n + 1, hn⟩) (ms_rowLabels ⟨n + 1, hn⟩) (hs_rowLabels ⟨n + 1, hn⟩) (ms_colLabels ⟨n + 1, hn⟩) (hs_colLabels ⟨n + 1, hn⟩) (ms_out ⟨n + 1, hn⟩) (hs_out ⟨n + 1, hn⟩) accM (Memref.isWhole_whole _) (fun h => h0 ((atFirst_iff ⟨n + 1, hn⟩).mp h)) (fun h => h1 ((atLast_iff ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

/-- At a resetting point. -/
theorem accAt_first (c : Dev nD) (t : Fin cfg0.N) (h0 : t.val % 8 = 0) (h1 : ¬t.val % 8 = 7) :
    accAt m c t.val t.isLt = accAfter_first c (grid0.coords t) (ms_rows t) (hs_rows t) (ms_cols t) (hs_cols t) (ms_rowLabels t) (hs_rowLabels t) (ms_colLabels t) (hs_colLabels t) (ms_out t) (hs_out t) accM (Memref.isWhole_whole _) ((atFirst_iff t).mpr h0) (fun h => h1 ((atLast_iff t).mp h)) (iblk m c 0 t) (iblk m c 1 t) (iblk m c 2 t) (iblk m c 3 t) := by
  obtain ⟨n, hn⟩ := t
  cases n with
  | zero => exact rfl
  | succ n => exact (dif_pos h0).trans rfl

/-- At an inner point, over what the point before left. -/
theorem accAt_mid (c : Dev nD) (t : Fin cfg0.N) (h0 : ¬t.val % 8 = 0) (h1 : ¬t.val % 8 = 7) :
    accAt m c t.val t.isLt = accAfter_mid c (grid0.coords t) (ms_rows t) (hs_rows t) (ms_cols t) (hs_cols t) (ms_rowLabels t) (hs_rowLabels t) (ms_colLabels t) (hs_colLabels t) (ms_out t) (hs_out t) accM (Memref.isWhole_whole _) (fun h => h0 ((atFirst_iff t).mp h)) (fun h => h1 ((atLast_iff t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a storing point, over what the point before left. -/
theorem accAt_last (c : Dev nD) (t : Fin cfg0.N) (h0 : ¬t.val % 8 = 0) (h1 : t.val % 8 = 7) :
    accAt m c t.val t.isLt = accAfter_last c (grid0.coords t) (ms_rows t) (hs_rows t) (ms_cols t) (hs_cols t) (ms_rowLabels t) (hs_rowLabels t) (ms_colLabels t) (hs_colLabels t) (ms_out t) (hs_out t) accM (Memref.isWhole_whole _) (fun h => h0 ((atFirst_iff t).mp h)) ((atLast_iff t).mpr h1) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output's buffer holds after the body at point n: at a storing point what the run wrote; elsewhere the
    window is idle and this value is consulted by nothing (the running sum stands in). -/
def outAt (c : Dev nD) (n : ℕ) (hn : n < cfg0.N) : Vec F S1024x1 .f32 :=
  if h1 : n % 8 = 7 then
    outAfter_last c (grid0.coords ⟨n, hn⟩) (ms_rows ⟨n, hn⟩) (hs_rows ⟨n, hn⟩) (ms_cols ⟨n, hn⟩) (hs_cols ⟨n, hn⟩) (ms_rowLabels ⟨n, hn⟩) (hs_rowLabels ⟨n, hn⟩) (ms_colLabels ⟨n, hn⟩) (hs_colLabels ⟨n, hn⟩) (ms_out ⟨n, hn⟩) (hs_out ⟨n, hn⟩) accM (Memref.isWhole_whole _) (fun h => (fun h' => by (try dsimp only at h'); omega) ((atFirst_iff ⟨n, hn⟩).mp h)) ((atLast_iff ⟨n, hn⟩).mpr h1) (iblk m c 0 ⟨n, hn⟩) (iblk m c 1 ⟨n, hn⟩) (iblk m c 2 ⟨n, hn⟩) (iblk m c 3 ⟨n, hn⟩) (accAt m c (n - 1) (Nat.lt_of_le_of_lt (Nat.sub_le _ _) hn))
  else accAt m c n hn

theorem outAt_last (c : Dev nD) (t : Fin cfg0.N) (h0 : ¬t.val % 8 = 0) (h1 : t.val % 8 = 7) :
    outAt m c t.val t.isLt = outAfter_last c (grid0.coords t) (ms_rows t) (hs_rows t) (ms_cols t) (hs_cols t) (ms_rowLabels t) (hs_rowLabels t) (ms_colLabels t) (hs_colLabels t) (ms_out t) (hs_out t) accM (Memref.isWhole_whole _) (fun h => h0 ((atFirst_iff t).mp h)) ((atLast_iff t).mpr h1) (iblk m c 0 t) (iblk m c 1 t) (iblk m c 2 t) (iblk m c 3 t) (accAt m c (t.val - 1) (Nat.lt_of_le_of_lt (Nat.sub_le _ _) t.isLt)) := by
  unfold outAt; rw [dif_pos h1]

/-! ## The invariant -/

/-- Before point n: the region's plain invariant before the first point, afterwards the scratch at what the point
    before left, beside the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- The arrays as the region finds them; after the body each input's buffer at its block and the output's at outAt;
    the invariant PhiS; nothing owed; the rows array's full share dealt in halves to its two windows. -/
def dat (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat m c).A w = V1 m c (Pipeline.arrRef spec0 w) := by
  dsimp only [dat]
theorem PhiS_castSucc (c : Dev nD) (t : Fin cfg0.N) :
    (dat m c).Φ t.castSucc = PhiS m c t.val (Nat.le_of_lt t.isLt) := by
  dsimp only [dat]; simp only [Fin.coe_castSucc]

theorem after_rows (c : Dev nD) (t : Fin cfg0.N) : (dat m c).after 0 t = iblk m c 0 t := by dsimp only [dat]
theorem after_cols (c : Dev nD) (t : Fin cfg0.N) : (dat m c).after 1 t = iblk m c 1 t := by dsimp only [dat]
theorem after_rowLabels (c : Dev nD) (t : Fin cfg0.N) : (dat m c).after 2 t = iblk m c 2 t := by dsimp only [dat]
theorem after_colLabels (c : Dev nD) (t : Fin cfg0.N) : (dat m c).after 3 t = iblk m c 3 t := by dsimp only [dat]
theorem after_out (c : Dev nD) (t : Fin cfg0.N) : (dat m c).after 4 t = outAt m c t.val t.isLt := by dsimp only [dat]

theorem before_rows (c : Dev nD) (t : Fin cfg0.N) (d) : (dat m c).before 0 t d = iblk m c 0 t :=
  before_rows_of m (dat m c) (A_eq m c 0) (after_rows m c) t d
theorem before_cols (c : Dev nD) (t : Fin cfg0.N) (d) : (dat m c).before 1 t d = iblk m c 1 t :=
  before_cols_of m (dat m c) (A_eq m c 1) (after_cols m c) t d
theorem before_rowLabels (c : Dev nD) (t : Fin cfg0.N) (d) : (dat m c).before 2 t d = iblk m c 2 t :=
  before_rowLabels_of m (dat m c) (A_eq m c 2) (after_rowLabels m c) t d
theorem before_colLabels (c : Dev nD) (t : Fin cfg0.N) (d) : (dat m c).before 3 t d = iblk m c 3 t :=
  before_colLabels_of m (dat m c) (A_eq m c 3) (after_colLabels m c) t d

/-! ## The body obligation -/

/-- What the body is called with at point t, -/
def bodyPre (c : Dev nD) (t : Fin cfg0.N) : sProp 𝕄 :=
  iprop((dat m c).Φ t.castSucc ∗ (dat m c).owesAt () t.castSucc
    ∗ (∃ d, owns (c : Thread nD τ) (ms_rows t) fullShare ((dat m c).before 0 t d))
    ∗ (∃ d, owns (c : Thread nD τ) (ms_cols t) fullShare ((dat m c).before 1 t d))
    ∗ (∃ d, owns (c : Thread nD τ) (ms_rowLabels t) fullShare ((dat m c).before 2 t d))
    ∗ (∃ d, owns (c : Thread nD τ) (ms_colLabels t) fullShare ((dat m c).before 3 t d))
    ∗ (∃ d, owns (c : Thread nD τ) (ms_out t) fullShare ((dat m c).before 4 t d)))

/-- and what it returns. -/
def bodyPost (c : Dev nD) (t : Fin cfg0.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t
    ∗ (dat m c).leavesExact 4 t)

theorem leaves_rows (c : Dev nD) (t : Fin cfg0.N) : (dat m c).leavesExact 0 t = owns (c : Thread nD τ) (ms_rows t) fullShare (iblk m c 0 t) := by
  unfold Dat.leavesExact; rw [live_rows t, after_rows]
theorem leaves_cols (c : Dev nD) (t : Fin cfg0.N) : (dat m c).leavesExact 1 t = owns (c : Thread nD τ) (ms_cols t) fullShare (iblk m c 1 t) := by
  unfold Dat.leavesExact; rw [live_cols t, after_cols]
theorem leaves_rowLabels (c : Dev nD) (t : Fin cfg0.N) : (dat m c).leavesExact 2 t = owns (c : Thread nD τ) (ms_rowLabels t) fullShare (iblk m c 2 t) := by
  unfold Dat.leavesExact; rw [live_rowLabels t, after_rowLabels]
theorem leaves_colLabels (c : Dev nD) (t : Fin cfg0.N) : (dat m c).leavesExact 3 t = owns (c : Thread nD τ) (ms_colLabels t) fullShare (iblk m c 3 t) := by
  unfold Dat.leavesExact; rw [live_colLabels t, after_colLabels]

set_option maxHeartbeats 4800000 in
/-- The body at any point: the inputs' buffers hold their blocks; the point's class (resetting, inner, storing) is
    read off t mod 8; the invariant hands the body the scratch at what the point before left (at anything at the very
    first point) and takes it back at this point's contents; away from the storing points the output's buffer goes back
    untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols, before_rowLabels, before_colLabels]
  rw [show (dat m c).owesAt () t.succ = (dat m c).owesAt () t.castSucc from rfl]
  rw [show (dat m c).Φ t.succ = PhiS m c (t.val + 1) t.isLt from rfl, PhiS_succ]
  rw [leaves_rows, leaves_cols, leaves_rowLabels, leaves_colLabels]
  have hN : t.val < 64 := N_lt t.isLt
  by_cases h0 : t.val % 8 = 0
  · have h1 : ¬t.val % 8 = 7 := by omega
    rw [Dat.leavesExact_idle (dat m c) 4 t (idle_out t (fun h => h1 ((atLast_iff t).mp h))) (noFlush_out t (fun h => h1 ((atLast_iff t).mp h)))]
    rw [accAt_first m c t h0 h1]
    unfold accAfter_first; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩⟩
      iapply ((tileRun_first c (grid0.coords t) _ _ _ _ _ _ _ _ _ _ _ _ ((atFirst_iff t).mpr h0) (fun h => h1 ((atLast_iff t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accCover_first c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((tileRun_first c (grid0.coords t) _ _ _ _ _ _ _ _ _ _ _ _ ((atFirst_iff t).mpr h0) (fun h => h1 ((atLast_iff t).mp h)) (iblk m c 0 t) (iblk m c 1 t) (iblk m c 2 t) (iblk m c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accCover_first c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun hz => h0 (by rw [hz])
    by_cases h1 : t.val % 8 = 7
    · rw [show (dat m c).leavesExact 4 t = owns (c : Thread nD τ) (ms_out t) fullShare ((dat m c).after 4 t) from by
        unfold Dat.leavesExact; rw [live_out t ((atLast_iff t).mpr h1)], after_out]
      rw [outAt_last m c t h0 h1, accAt_last m c t h0 h1]
      unfold outAfter_last accAfter_last; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((tileRun_last c (grid0.coords t) _ _ _ _ _ _ _ _ _ _ _ _ (fun h => h0 ((atFirst_iff t).mp h)) ((atLast_iff t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (accCover_last c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outCover_last c _ _ _ _ _ _ _ _ _ _ _ _ _ _ _ _ _ _ _ _)
    · rw [Dat.leavesExact_idle (dat m c) 4 t (idle_out t (fun h => h1 ((atLast_iff t).mp h))) (noFlush_out t (fun h => h1 ((atLast_iff t).mp h)))]
      rw [accAt_mid m c t h0 h1]
      unfold accAfter_mid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((tileRun_mid c (grid0.coords t) _ _ _ _ _ _ _ _ _ _ _ _ (fun h => h0 ((atFirst_iff t).mp h)) (fun h => h1 ((atLast_iff t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (accCover_mid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body obligation at every point. -/
theorem body_obligation (c : Dev nD) : BodyObligation (dat (F := F) m c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dat m c).Φ 0 := by
  rw [show (dat m c).Φ 0 = PhiS m c 0 (Nat.zero_le _) from rfl, PhiS_zero m c 0 _ rfl]
  try exact Idealize.SL.BI.Entails.refl _

/-- After the last point the invariant gives the plain one back: the scratch's contents are forgotten. -/
theorem hout (c : Dev nD) : (dat m c).Φ (Fin.last cfg0.N) ⊢ Pipeline.ΦA spec0 c := by
  rw [show (dat m c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

end Cert.KernelIdeal.Hand

end
-- ==== Proof.KI.Launch.lean ====
/-
  The launch of the idealized kernel program: @main as two reshapes, one kernel region, four host operations.

  The region's windows 0 and 1 read ONE array (the rows, through a row-block map and a column-block map), so the
  buffers behind the windows' arrays are four, not five: the rows array is held whole when the region is entered,
  its full share is cut into a left half for window 0 and a right half for window 1, and the halves are joined
  again when the region is left.  Everything else is the several-segments launch: the unscoped buffers at a
  valuation per boundary (W0 at launch, W1 after the reshapes, W2 after the region, W3 at the return), the
  generator register and the tallies riding along.
-/
import proofs.«111649_j5815385719271_1_alg».proof.Proof.KI.Entry
import Idealize.ShloMosaic.Lib.Pipeline.Frame
import Idealize.ShloMosaic.Lib.Pipeline.FrameSuffix
import Idealize.ShloMosaic.Lib.Pipeline.Regions
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The windows' arrays against the buffers behind them -/

/-- The buffers behind the windows' arrays are the rows array, the two reshaped label arrays and the output. -/
theorem arrRef_image : (Finset.univ.image (Pipeline.arrRef spec0) : Finset (Ref sig .tc)) = [main_arg0, main_v0, main_v1, main_v2].toFinset := by
  decide

/-- The four buffers behind the five windows, each whole at the full share at contents X, are the pipeline's arrays
    at contents G read off X: the rows array's full share is the left half (window 0) beside the right half
    (window 1); the other three windows hold their arrays whole. -/
theorem arrays_iff (c : Dev nD) (dat : Pipeline.Dat τ (Elt F) Unit ℕ (UR sig nD τ) ℕ cfg0 c)
    (hq0 : dat.q 0 = fullShare.left) (hq1 : dat.q 1 = fullShare.right) (hq2 : dat.q 2 = fullShare) (hq3 : dat.q 3 = fullShare)
    (X : (b : Ref sig .tc) → Buf (Elt F) ((c : Thread nD τ).loc b))
    (G : (w : Fin cfg0.W) → Buf (Elt F) ((cfg0.win w).arr.view.loc (c : Thread nD τ))) (hG : ∀ w, G w = X (Pipeline.arrRef spec0 w)) :
    (Pipeline.arrBufs spec0 c X : sProp 𝕄) ⊣⊢ dat.arrays G := by
  -- the shares: an input window holds its array at the proof data's share, the output window at the full share
  have s0 : dat.share 0 = fullShare.left := hq0
  have s1 : dat.share 1 = fullShare.right := hq1
  have s2 : dat.share 2 = fullShare := hq2
  have s3 : dat.share 3 = fullShare := hq3
  have s4 : dat.share 4 = fullShare := rfl
  unfold Pipeline.arrBufs Pipeline.Dat.arrays
  rw [bigSep_eq_bigSepL_of_eq _ arrRef_image (by decide), bigSep_W0]
  rw [(arr_whole0 0).set_eq_univ, (arr_whole0 2).set_eq_univ, (arr_whole0 3).set_eq_univ, (arr_whole0 4).set_eq_univ,
    s0, s1, s2, s3, s4, hG 0, hG 1, hG 2, hG 3, hG 4]
  show (iprop(((c : Thread nD τ).loc main_arg0 ↦{fullShare} X main_arg0) ∗ ((c : Thread nD τ).loc main_v0 ↦{fullShare} X main_v0)
        ∗ ((c : Thread nD τ).loc main_v1 ↦{fullShare} X main_v1) ∗ ((c : Thread nD τ).loc main_v2 ↦{fullShare} X main_v2)) : sProp 𝕄)
      ⊣⊢ iprop(((c : Thread nD τ).loc main_arg0 ↦{fullShare.left} X main_arg0) ∗ ((c : Thread nD τ).loc main_arg0 ↦{fullShare.right} X main_arg0)
        ∗ ((c : Thread nD τ).loc main_v0 ↦{fullShare} X main_v0) ∗ ((c : Thread nD τ).loc main_v1 ↦{fullShare} X main_v1)
        ∗ ((c : Thread nD τ).loc main_v2 ↦{fullShare} X main_v2))
  -- the rows array's full share is its left half beside its right half
  have hsh : (((c : Thread nD τ).loc main_arg0 ↦{fullShare} X main_arg0) : sProp 𝕄)
      ⊣⊢ iprop(((c : Thread nD τ).loc main_arg0 ↦{fullShare.left} X main_arg0) ∗ ((c : Thread nD τ).loc main_arg0 ↦{fullShare.right} X main_arg0)) :=
    pointsTo_share (PosShare.mem_left_op_right fullShare)
  refine ⟨?_, ?_⟩
  · iintro ⟨Ha, H0, H1, H2⟩
    ihave Ha := (hsh.1) $$ Ha
    icases Ha with ⟨Hl, Hr⟩
    isplitl [Hl]; · iexact Hl
    isplitl [Hr]; · iexact Hr
    isplitl [H0]; · iexact H0
    isplitl [H1]; · iexact H1
    iexact H2
  · iintro ⟨Hl, Hr, H0, H1, H2⟩
    isplitl [Hl Hr]
    · iapply (hsh.2)
      isplitl [Hl]; · iexact Hl
      iexact Hr
    isplitl [H0]; · iexact H0
    isplitl [H1]; · iexact H1
    iexact H2

/-! ## The buffer contents after the region and at the return -/

variable (m : (ℓ : Loc nD τ sig) → Buf (Elt F) ℓ) (ρ : Dev nD → PrngReg)

section Run

variable (dat : (c : Dev nD) → Pipeline.Dat τ (Elt F) Unit ℕ (UR sig nD τ) ℕ cfg0 c)

/-- At the region's exit: each window's array at what the pipeline leaves there (an input as entered, the output with
    its write-backs folded), every other buffer as entered. -/
def W2 (c : Dev nD) : Valuation τ sig (Elt F) :=
  Pipeline.withArrays spec0 c (W1 m c) fun w => (dat c).arrAt w cfg0.N
/-- After the four host operations that follow the region: the contents at the return. -/
abbrev W3 (c : Dev nD) : Valuation τ sig (Elt F) := StableHlo.after hostOps1 (W2 m dat c)

/-- Reading a valuation along an equation of references is reading it at the other end. -/
theorem cast_valuation (V : Valuation τ sig (Elt F)) {b b' : DevRef τ sig} (e : b' = b) :
    cast (congrArg (fun r : DevRef τ sig => r.ty.Contents (Elt F)) e) (V b') = V b := by
  subst e; rfl

/-- A family of array contents in which windows on one array agree is read back at every window's array: the
    override picks SOME window on that array, and any such window holds the same contents. -/
theorem withArrays_consistent (c : Dev nD) (V : Valuation τ sig (Elt F))
    (A : (w : Fin cfg0.W) → Buf (Elt F) ((spec0 w).arr.view.loc (c : Thread nD τ))) (w : Fin cfg0.W)
    (h : ∀ (w' : Fin cfg0.W) (e : Proc.devRef .tc (Pipeline.arrRef spec0 w') = Proc.devRef (τ := τ) .tc (Pipeline.arrRef spec0 w)),
      cast (congrArg (fun r : DevRef τ sig => r.ty.Contents (Elt F)) e) (A w') = A w) :
    Pipeline.withArrays spec0 c V A (Proc.devRef .tc (Pipeline.arrRef spec0 w)) = A w := by
  unfold Pipeline.withArrays
  have hex : ∃ w', Proc.devRef .tc (Pipeline.arrRef spec0 w') = Proc.devRef (τ := τ) .tc (Pipeline.arrRef spec0 w) := ⟨w, rfl⟩
  rw [dif_pos hex]
  exact h _ hex.choose_spec

/-- Windows 0 to 3 are inputs. -/
theorem isOut_of_ne : ∀ w : Fin cfg0.W, w ≠ 4 → (cfg0.win w).isOut = false := by decide
/-- The output window is the only one on its array. -/
theorem eq_four_of_arrRef : ∀ w w' : Fin cfg0.W, Pipeline.arrRef spec0 w' = Pipeline.arrRef spec0 w → (w' = 4 ↔ w = 4) := by decide

section
variable (hA : ∀ c w, (dat c).A w = V1 m c (Pipeline.arrRef spec0 w))
include hA

/-- An input window's array ends the region as it entered it: at the entry valuation. -/
theorem arrAt_in (c : Dev nD) (w : Fin cfg0.W) (hw : w ≠ 4) (t : ℕ) :
    (dat c).arrAt w t = W1 m c (Proc.devRef .tc (Pipeline.arrRef spec0 w)) :=
  ((dat c).arrAt_in w (isOut_of_ne w hw) t).trans (hA c w)

/-- At the region's exit every window's array holds what the pipeline leaves there: the two windows on the rows
    array are inputs and both leave it at the entry contents; the output window is alone on its array. -/
theorem W2_arr (c : Dev nD) (w : Fin cfg0.W) :
    W2 m dat c (Proc.devRef .tc (Pipeline.arrRef spec0 w)) = (dat c).arrAt w cfg0.N := by
  unfold W2
  refine withArrays_consistent c _ _ w fun w' e => ?_
  have e' : Pipeline.arrRef spec0 w' = Pipeline.arrRef spec0 w := Proc.devRef_injective _ e
  by_cases h4 : w = 4
  · obtain rfl : w' = w := ((eq_four_of_arrRef w w' e').mpr h4).trans h4.symm
    rfl
  · have h4' : w' ≠ 4 := fun h => h4 ((eq_four_of_arrRef w w' e').mp h)
    show cast _ ((dat c).arrAt w' cfg0.N) = (dat c).arrAt w cfg0.N
    rw [arrAt_in m dat hA c w h4, arrAt_in m dat hA c w' h4']
    exact cast_valuation (W1 m c) e
end

/-- A buffer that is no window's array leaves the region as it entered it. -/
theorem W2_of_ne (c : Dev nD) (b : Ref sig .tc) (hb : ∀ w, Pipeline.arrRef spec0 w ≠ b) :
    W2 m dat c (Proc.devRef .tc b) = W1 m c (Proc.devRef .tc b) := by
  unfold W2; exact Pipeline.withArrays_of_ne spec0 c _ _ b hb

/-! ### Reading the valuations back: the arguments end as launched, the output array at what the pipeline leaves -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that none of the two reshapes writes holds its launch contents when the region is entered. -/
theorem W1_of_not_written (c : Dev nD) (b : Ref sig .tc) (h0 : b ≠ main_v0) (h1 : b ≠ main_v1) :
    W1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- A buffer that none of the four host operations after the region writes holds at the return what the region left. -/
theorem W3_of_not_written (c : Dev nD) (b : Ref sig .tc) (h0 : b ≠ main_cst) (h1 : b ≠ main_v3) (h2 : b ≠ main_cst_0) (h3 : b ≠ main_v4) :
    W3 m dat c (Proc.devRef .tc b) = W2 m dat c (Proc.devRef .tc b) :=
  StableHlo.after_of_forall_not_mem (b := Proc.devRef .tc b) _ _ (List.forall_iff_forall_mem.mp (by
    simp only [hostOps1, List.Forall, StableHlo.nullary_writes, StableHlo.binary_writes, Finset.mem_singleton]
    exact ⟨StableHlo.devRef_ne_of_ne h0, StableHlo.devRef_ne_of_ne h1, StableHlo.devRef_ne_of_ne h2, StableHlo.devRef_ne_of_ne h3⟩))

section
variable (hA : ∀ c w, (dat c).A w = V1 m c (Pipeline.arrRef spec0 w))
include hA

/-- The rows array ends as launched: no host operation writes it, and the region only reads it. -/
theorem W3_main_arg0 (c : Dev nD) : W3 m dat c (Proc.devRef .tc main_arg0) = m ((c : Thread nD τ).loc main_arg0) :=
  calc W3 m dat c (Proc.devRef .tc main_arg0)
    _ = W2 m dat c (Proc.devRef .tc main_arg0) := W3_of_not_written m dat c main_arg0 (by decide) (by decide) (by decide) (by decide)
    _ = (dat c).arrAt 0 cfg0.N := W2_arr m dat hA c 0
    _ = W1 m c (Proc.devRef .tc main_arg0) := arrAt_in m dat hA c 0 (by decide) _
    _ = m ((c : Thread nD τ).loc main_arg0) := W1_of_not_written m c main_arg0 (by decide) (by decide)

/-- The output array holds at the region's exit what the pipeline's write-backs leave. -/
theorem W2_main_v2 (c : Dev nD) : W2 m dat c (Proc.devRef .tc main_v2) = (dat c).arrAt 4 cfg0.N := W2_arr m dat hA c 4
end

/-- The label vector ends as launched: no host operation writes it, and the region bypasses it. -/
theorem W3_main_arg1 (c : Dev nD) : W3 m dat c (Proc.devRef .tc main_arg1) = m ((c : Thread nD τ).loc main_arg1) :=
  calc W3 m dat c (Proc.devRef .tc main_arg1)
    _ = W2 m dat c (Proc.devRef .tc main_arg1) := W3_of_not_written m dat c main_arg1 (by decide) (by decide) (by decide) (by decide)
    _ = W1 m c (Proc.devRef .tc main_arg1) := W2_of_ne m dat c main_arg1 (by decide)
    _ = m ((c : Thread nD τ).loc main_arg1) := W1_of_not_written m c main_arg1 (by decide) (by decide)

/-! ## The proof data family, the thread state and the segments -/

/-- The prefetched tables' admissible contents: the pipeline has no table. -/
abbrev adm : (p : Fin 1) → (pcfgs (F := F) p).Adm := fun p => (cfgs p).toPCfg_adm
/-- The one pipeline's proof data, as a literal match, so that the pinned configuration at the numeral reduces to
    the printed one. -/
def pdats : (p : Fin 1) → (c : Dev nD) → Dat τ (Elt F) Unit ℕ (UR sig nD τ) ℕ (Pipeline.pin (pcfgs (F := F)) adm p) c
  | ⟨0, _⟩ => dat
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state (the region's invariant
    takes it in and gives it back) and the core owing nothing. -/
abbrev R (c : Dev nD) : sProp 𝕄 := iprop((∃ r, prngReg c r) ∗ ∃ W, owes (c : Thread nD τ) (0 : CellTallies nD τ sig Unit) W)
/-- A stretch of host operations as a segment over the unscoped buffers at a valuation, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state but for the tallies: every unscoped buffer at the return's contents, the generator register
    at some state. -/
abbrev Tₙ (c : Dev nD) : sProp 𝕄 := iprop(StableHlo.held (c : Thread nD τ) (Pipeline.ucRefs τ sig) (W3 m dat c) ∗ ∃ r, prngReg c r)

section Region

variable (hA : ∀ c w, (dat c).A w = V1 m c (Pipeline.arrRef spec0 w))
  (hq0 : ∀ c, (dat c).q 0 = fullShare.left) (hq1 : ∀ c, (dat c).q 1 = fullShare.right)
  (hq2 : ∀ c, (dat c).q 2 = fullShare) (hq3 : ∀ c, (dat c).q 3 = fullShare)

include hA hq0 hq1 hq2 hq3 in
/-- ENTRY, the buffers' part: every unscoped buffer at the entry valuation is the windows' arrays at the proof data's
    entry contents (the rows array's share cut in two) beside the buffers that bypass the region. -/
theorem entry_split (c : Dev nD) :
    (StableHlo.held (c : Thread nD τ) (Pipeline.ucRefs τ sig) (W1 m c) : sProp 𝕄)
      ⊢ iprop((dat c).arrays ((dat c).arrAt · 0) ∗ Pipeline.unscopedRest spec0 c (V1 m c)) := by
  rw [← Pipeline.unscopedBufs_held c (W1 m c), Pipeline.unscopedBufs_split₀ cfgs 0 winFacts₀0.arr_unscoped c]
  exact sep_mono (arrays_iff c (dat c) (hq0 c) (hq1 c) (hq2 c) (hq3 c) _ _ fun w => hA c w).1 .rfl

include hA hq0 hq1 hq2 hq3 in
/-- EXIT, the buffers' part: the windows' arrays at what the pipeline leaves (the rows array's halves joined) and the
    bypassing buffers as entered are every unscoped buffer at the exit valuation. -/
theorem exit_join (c : Dev nD) :
    (iprop((dat c).arrays ((dat c).arrAt · cfg0.N) ∗ Pipeline.unscopedRest spec0 c (V1 m c)) : sProp 𝕄)
      ⊢ StableHlo.held (c : Thread nD τ) (Pipeline.ucRefs τ sig) (W2 m dat c) := by
  rw [← Pipeline.unscopedBufs_held c (W2 m dat c), Pipeline.unscopedBufs_split₀ cfgs 0 winFacts₀0.arr_unscoped c]
  refine sep_mono (arrays_iff c (dat c) (hq0 c) (hq1 c) (hq2 c) (hq3 c) _ _ fun w => (W2_arr m dat hA c w).symm).2 (Entails.of_eq ?_)
  unfold Pipeline.unscopedRest
  exact bigSep_congr fun b hb => congrArg (fun f => (((c : Thread nD τ).loc b) ↦{fullShare} f : sProp 𝕄))
    (W2_of_ne m dat c b fun w e => (Finset.mem_sdiff.mp hb).2 (Finset.mem_image.mpr ⟨w, Finset.mem_univ _, e⟩)).symm

end Region

section Tallies

variable (howed : ∀ c t, (dat c).owed t = 0) (hrec : ∀ c t, (dat c).recorded t = Set.univ)

include howed hrec in
/-- ENTRY, the tallies: the core owing nothing is the proof data's tallies before the first point, the recorded
    pairs being unconstrained. -/
theorem owes_entry (c : Dev nD) :
    (iprop(∃ W, owes (c : Thread nD τ) (0 : CellTallies nD τ sig Unit) W) : sProp 𝕄) ⊢ (dat c).owesAt () 0 := by
  show _ ⊢ Pipeline.owesWithin c ((dat c).owed 0) ((dat c).bound () 0)
  rw [howed c 0]
  iintro ⟨%W, HO⟩; iexists W
  isplitr; · ipureintro; exact fun _ _ => Or.inl (by rw [hrec c 0]; trivial)
  iexact HO

include howed in
/-- EXIT, the tallies: after the last point the core owes nothing. -/
theorem owes_exit (c : Dev nD) :
    ((dat c).owesAt () (Fin.last cfg0.N) : sProp 𝕄) ⊢ iprop(∃ W, owes (c : Thread nD τ) (0 : CellTallies nD τ sig Unit) W) := by
  show Pipeline.owesWithin c ((dat c).owed (Fin.last cfg0.N)) ((dat c).bound () (Fin.last cfg0.N)) ⊢ _
  rw [howed c (Fin.last cfg0.N)]
  iintro ⟨%W, -, HO⟩; iexists W; iexact HO

end Tallies

section Launch

/-- The buffers that bypass the region, at the entry valuation. -/
abbrev Zr (c : Dev nD) : sProp 𝕄 :=
  Pipeline.unscopedRest (Ix := Unit) (Name := ℕ) (U := UR sig nD τ) (Lvl := ℕ) spec0 c (V1 m c)

/-- ENTRY: from every unscoped buffer at W1, the register and the core owing nothing — the windows' arrays at the
    entry contents, no table, the first tallies, the register for the invariant, the bypassing buffers. -/
theorem region_entry (hA : ∀ (c : Dev nD) (w : Fin cfg0.W), (dat c).A w = V1 m c (Pipeline.arrRef spec0 w))
    (hq0 : ∀ c : Dev nD, (dat c).q 0 = fullShare.left) (hq1 : ∀ c : Dev nD, (dat c).q 1 = fullShare.right)
    (hq2 : ∀ c : Dev nD, (dat c).q 2 = fullShare) (hq3 : ∀ c : Dev nD, (dat c).q 3 = fullShare)
    (howed : ∀ (c : Dev nD) (t : Fin (cfg0.N + 1)), (dat c).owed t = 0) (hrec : ∀ (c : Dev nD) (t : Fin (cfg0.N + 1)), (dat c).recorded t = Set.univ)
    (c : Dev nD) :
    (iprop((StableHlo.held (c : Thread nD τ) (Pipeline.ucRefs τ sig) (W1 m c) ∗ R c)
        ∗ Pipeline.ownSems0 (fun k : PEmpty => k.elim) c ∗ levAts L lv) : sProp 𝕄)
      ⊢ |={Set.univ}=> iprop((dat c).arrays ((dat c).arrAt · 0) ∗ Pipeline.prefHeld (pcfgs (F := F) 0).pre c (fun _ => fullShare) (adm (F := F) 0).1
          ∗ (dat c).owesAt () 0 ∗ (∃ r, prngReg c r) ∗ Zr m c) := by
  have hsplit := entry_split m dat hA hq0 hq1 hq2 hq3 c
  have htal := owes_entry dat howed hrec c
  iintro ⟨⟨Hub, Hp, HO⟩, -, -⟩
  ihave H := hsplit $$ Hub
  icases H with ⟨Ha, Hrest⟩
  ihave HO := htal $$ HO
  imodintro
  isplitl [Ha]; · iexact Ha
  isplitr
  · -- no prefetched table
    unfold Pipeline.prefHeld; rw [show (Finset.univ : Finset (Fin 0)) = ∅ from rfl, BI.bigSep_empty]; iempintro
  isplitl [HO]; · iexact HO
  isplitl [Hp]; · iexact Hp
  iexact Hrest

/-- The invariant at the first point, from the register and the scoped buffers no window stages. -/
theorem region_in (hin : ∀ c : Dev nD, (Pipeline.ΦA spec0 c : sProp 𝕄) ⊢ (dat c).Φ 0) (c : Dev nD) :
    (iprop((∃ r, prngReg c r) ∗ Pipeline.prefHeld (pcfgs (F := F) 0).pre c (fun _ => fullShare) (adm (F := F) 0).1
        ∗ Pipeline.scopedRest spec0 c) : sProp 𝕄) ⊢ (dat c).Φ 0 := by
  have h : (iprop((∃ r, prngReg c r) ∗ Pipeline.prefHeld (pcfgs (F := F) 0).pre c (fun _ => fullShare) (adm (F := F) 0).1
      ∗ Pipeline.scopedRest spec0 c) : sProp 𝕄) ⊢ (Pipeline.ΦA spec0 c : sProp 𝕄) := by
    -- no prefetched table
    unfold Pipeline.ΦA Pipeline.prefHeld
    rw [show (Finset.univ : Finset (Fin 0)) = ∅ from rfl, BI.bigSep_empty]
    iintro ⟨Hp, -, Hr⟩
    isplitl [Hr]; · iexact Hr
    iexact Hp
  exact h.trans (hin c)

/-- The invariant at the last point gives the register and those scoped buffers back. -/
theorem region_out (hout : ∀ c : Dev nD, (dat c).Φ (Fin.last cfg0.N) ⊢ (Pipeline.ΦA spec0 c : sProp 𝕄)) (c : Dev nD) :
    (dat c).Φ (Fin.last cfg0.N)
      ⊢ (iprop((∃ r, prngReg c r) ∗ Pipeline.ownSems0 (fun k : PEmpty => k.elim) c ∗ Pipeline.scopedRest spec0 c) : sProp 𝕄) := by
  have h : (Pipeline.ΦA spec0 c : sProp 𝕄)
      ⊢ (iprop((∃ r, prngReg c r) ∗ Pipeline.ownSems0 (fun k : PEmpty => k.elim) c ∗ Pipeline.scopedRest spec0 c) : sProp 𝕄) := by
    rw [Pipeline.ownSems0_none]
    unfold Pipeline.ΦA
    iintro ⟨Hr, Hp⟩
    isplitl [Hp]; · iexact Hp
    isplitr; · iempintro
    iexact Hr
  exact (hout c).trans h

/-- EXIT: the windows' arrays at what the pipeline leaves, the last tallies, the register and the bypassing buffers
    are every unscoped buffer at W2, the register and the core owing nothing. -/
theorem region_exit (hA : ∀ (c : Dev nD) (w : Fin cfg0.W), (dat c).A w = V1 m c (Pipeline.arrRef spec0 w))
    (hq0 : ∀ c : Dev nD, (dat c).q 0 = fullShare.left) (hq1 : ∀ c : Dev nD, (dat c).q 1 = fullShare.right)
    (hq2 : ∀ c : Dev nD, (dat c).q 2 = fullShare) (hq3 : ∀ c : Dev nD, (dat c).q 3 = fullShare)
    (howed : ∀ (c : Dev nD) (t : Fin (cfg0.N + 1)), (dat c).owed t = 0) (c : Dev nD) :
    (iprop((dat c).arrays ((dat c).arrAt · cfg0.N) ∗ (dat c).owesAt () (Fin.last cfg0.N) ∗ (∃ r, prngReg c r) ∗ Zr m c) : sProp 𝕄)
      ⊢ |={Set.univ}=> iprop(StableHlo.held (c : Thread nD τ) (Pipeline.ucRefs τ sig) (W2 m dat c) ∗ R c) := by
  have hjoin := exit_join m dat hA hq0 hq1 hq2 hq3 c
  have htal := owes_exit dat howed c
  iintro ⟨Ha, HO, HY, Hrest⟩
  ihave HO := htal $$ HO
  imodintro
  isplitl [Ha Hrest]
  · iapply hjoin; isplitl [Ha] <;> iassumption
  isplitl [HY]; · iexact HY
  iexact HO

-- the library's fields are stated over the pinned configuration, which unifies with the printed one only when
-- unification may unfold plain definitions in a metavariable's type
set_option backward.isDefEq.respectTransparency.types false in
/-- THE REGION over the thread state: entered from every unscoped buffer at W1, left at W2. Its arrays are sorted out
    of the unscoped buffers with the rows array's share cut in two, and put back with the halves joined; the generator
    register goes into the invariant and comes back; nothing is owed; the kernel has no semaphore of its own. -/
def reg0 (hA : ∀ (c : Dev nD) (w : Fin cfg0.W), (dat c).A w = V1 m c (Pipeline.arrRef spec0 w))
    (hq0 : ∀ c : Dev nD, (dat c).q 0 = fullShare.left) (hq1 : ∀ c : Dev nD, (dat c).q 1 = fullShare.right)
    (hq2 : ∀ c : Dev nD, (dat c).q 2 = fullShare) (hq3 : ∀ c : Dev nD, (dat c).q 3 = fullShare)
    (howed : ∀ (c : Dev nD) (t : Fin (cfg0.N + 1)), (dat c).owed t = 0) (hrec : ∀ (c : Dev nD) (t : Fin (cfg0.N + 1)), (dat c).recorded t = Set.univ)
    (hbody : ∀ c : Dev nD, Pipeline.BodyObligationLoose (dat c) (defs₀ (F := F)) Variants.none () Set.univ)
    (hin : ∀ c : Dev nD, (Pipeline.ΦA spec0 c : sProp 𝕄) ⊢ (dat c).Φ 0)
    (hout : ∀ c : Dev nD, (dat c).Φ (Fin.last cfg0.N) ⊢ (Pipeline.ΦA spec0 c : sProp 𝕄)) :
    Pipeline.RegionSeg (pcfgs (F := F)) adm (pdats dat) () defs₀ 𝒱₀ L lv 0 where
  win := winFacts₀0
  block_pos := block_pos0
  stage_whole := stage_whole0
  K := PEmpty
  osem k := k.elim
  ho := Pipeline.OwnSemFacts.none _
  hbody := hbody
  hwaits := Pipeline.hwaits_of_owed_zero _ _ _ _ L lv 0 howed
  pre c := iprop(StableHlo.held (c : Thread nD τ) (Pipeline.ucRefs τ sig) (W1 m c) ∗ R c)
  post c := iprop(StableHlo.held (c : Thread nD τ) (Pipeline.ucRefs τ sig) (W2 m dat c) ∗ R c)
  X c := iprop(∃ r, prngReg c r)
  Y c := iprop(∃ r, prngReg c r)
  Z c := Zr m c
  hentry := region_entry m dat hA hq0 hq1 hq2 hq3 howed hrec
  hin := region_in dat hin
  hout := region_out dat hout
  hexit := region_exit m dat hA hq0 hq1 hq2 hq3 howed

/-- @main's three segments in order: the two reshapes from the launch contents, the region, the four host operations
    from the region's exit contents. -/
abbrev segs (hA : ∀ (c : Dev nD) (w : Fin cfg0.W), (dat c).A w = V1 m c (Pipeline.arrRef spec0 w))
    (hq0 : ∀ c : Dev nD, (dat c).q 0 = fullShare.left) (hq1 : ∀ c : Dev nD, (dat c).q 1 = fullShare.right)
    (hq2 : ∀ c : Dev nD, (dat c).q 2 = fullShare) (hq3 : ∀ c : Dev nD, (dat c).q 3 = fullShare)
    (howed : ∀ (c : Dev nD) (t : Fin (cfg0.N + 1)), (dat c).owed t = 0) (hrec : ∀ (c : Dev nD) (t : Fin (cfg0.N + 1)), (dat c).recorded t = Set.univ)
    (hbody : ∀ c : Dev nD, Pipeline.BodyObligationLoose (dat c) (defs₀ (F := F)) Variants.none () Set.univ)
    (hin : ∀ c : Dev nD, (Pipeline.ΦA spec0 c : sProp 𝕄) ⊢ (dat c).Φ 0)
    (hout : ∀ c : Dev nD, (dat c).Φ (Fin.last cfg0.N) ⊢ (Pipeline.ΦA spec0 c : sProp 𝕄)) :
    List (Pipeline.Seg (pcfgs (F := F)) adm (pdats dat) () defs₀ 𝒱₀ L lv) :=
  [ .host (hseg hostOps0 hostOps0_sub hostOps0_fresh (W0 m)),
    .region (reg0 m dat hA hq0 hq1 hq2 hq3 howed hrec hbody hin hout),
    .host (hseg hostOps1 hostOps1_sub hostOps1_fresh (W2 m dat)) ]

/-- @main IS the run of the segments. -/
theorem main_run (hA : ∀ (c : Dev nD) (w : Fin cfg0.W), (dat c).A w = V1 m c (Pipeline.arrRef spec0 w))
    (hq0 : ∀ c : Dev nD, (dat c).q 0 = fullShare.left) (hq1 : ∀ c : Dev nD, (dat c).q 1 = fullShare.right)
    (hq2 : ∀ c : Dev nD, (dat c).q 2 = fullShare) (hq3 : ∀ c : Dev nD, (dat c).q 3 = fullShare)
    (howed : ∀ (c : Dev nD) (t : Fin (cfg0.N + 1)), (dat c).owed t = 0) (hrec : ∀ (c : Dev nD) (t : Fin (cfg0.N + 1)), (dat c).recorded t = Set.univ)
    (hbody : ∀ c : Dev nD, Pipeline.BodyObligationLoose (dat c) (defs₀ (F := F)) Variants.none () Set.univ)
    (hin : ∀ c : Dev nD, (Pipeline.ΦA spec0 c : sProp 𝕄) ⊢ (dat c).Φ 0)
    (hout : ∀ c : Dev nD, (dat c).Φ (Fin.last cfg0.N) ⊢ (Pipeline.ΦA spec0 c : sProp 𝕄)) (c : Dev nD) :
    main (F := F) c = Pipeline.Seg.run (segs m dat hA hq0 hq1 hq2 hq3 howed hrec hbody hin hout) :=
  main_segs adm (pdats dat) () 𝒱₀ L lv _ _ _ rfl rfl c

end Launch

section Final

-- the launch theorem's implicit arguments are found by unifying its conclusion with this one, which takes unfolding
-- plain definitions in a metavariable's type
set_option backward.isDefEq.respectTransparency.types false in
/-- THE LAUNCH: from any memory with every counter at zero, every weakly fair execution of @main on the TensorCore
    terminates, nothing faulting, and the final memory holds at every unscoped buffer the return's contents W3 — over
    any proof data of the region that reads its input arrays off the entry valuation, holds the rows array's share as
    the two halves, owes nothing, and whose invariant is entered from and left into the generator register beside the
    scoped buffers no window stages. -/
theorem run_of (hA : ∀ (c : Dev nD) (w : Fin cfg0.W), (dat c).A w = V1 m c (Pipeline.arrRef spec0 w))
    (hq0 : ∀ c : Dev nD, (dat c).q 0 = fullShare.left) (hq1 : ∀ c : Dev nD, (dat c).q 1 = fullShare.right)
    (hq2 : ∀ c : Dev nD, (dat c).q 2 = fullShare) (hq3 : ∀ c : Dev nD, (dat c).q 3 = fullShare)
    (howed : ∀ (c : Dev nD) (t : Fin (cfg0.N + 1)), (dat c).owed t = 0) (hrec : ∀ (c : Dev nD) (t : Fin (cfg0.N + 1)), (dat c).recorded t = Set.univ)
    (hbody : ∀ c : Dev nD, Pipeline.BodyObligationLoose (dat c) (defs₀ (F := F)) Variants.none () Set.univ)
    (hin : ∀ c : Dev nD, (Pipeline.ΦA spec0 c : sProp 𝕄) ⊢ (dat c).Φ 0)
    (hout : ∀ c : Dev nD, (dat c).Φ (Fin.last cfg0.N) ⊢ (Pipeline.ΦA spec0 c : sProp 𝕄)) :
    θ_run defs (onTc (τ := τ) (main (F := F))) ⟨m, fun _ => 0, ρ⟩
      (fun r => ∀ c : Dev nD, ∀ b ∈ Pipeline.ucRefs τ sig, r.2.mem ((c : Thread nD τ).1, b) = W3 m dat c b) :=
  Pipeline.θ_run_regions_kit (pcfgs (F := F)) adm (pdats dat) () cellOf_inj emb₁ defs₀ 𝒱₀ L lv m ρ main
    (segs m dat hA hq0 hq1 hq2 hq3 howed hrec hbody hin hout)
    (fun c Q => by rw [main_run m dat hA hq0 hq1 hq2 hq3 howed hrec hbody hin hout c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element IS the pipeline library's; no other ghost resource is dealt
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dat)
    (hch := ⟨fun _ => .rfl, fun _ => .rfl, fun _ => .rfl, fun c => by
      -- the last host stretch leaves the buffers at W3 beside the register and the tallies: regroup
      show (iprop(StableHlo.held (c : Thread nD τ) (Pipeline.ucRefs τ sig) (W3 m dat c) ∗ R c) : sProp 𝕄)
        ⊢ iprop(Tₙ m dat c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m dat c b)
    (hfin := fun c s' => by
      iintro ⟨⟨Hh, -⟩, HSI⟩
      unfold StableHlo.held
      imodintro
      iapply (pointsTo_read_all (Pipeline.ucRefs τ sig) (fun b => (((c : Thread nD τ)).1, b)) (W3 m dat c) s')
      isplitl [Hh] <;> iassumption)
    (hQ := fun s h c => h c)

end Final

end Run

end Cert.KernelIdeal.Hand

end
-- ==== Proof.KI.Frame.lean ====
/-
  The run of the whole program at the proof data of the one region, and the frame claim.

  Every weakly fair execution terminates; in every final state each unscoped buffer holds what the last stretch of host
  operations leaves, computed from the region's exit contents; the two argument arrays hold their launch contents,
  since no host operation writes them and the region only reads them.
-/
import proofs.«111649_j5815385719271_1_alg».proof.Proof.KI.Data
import proofs.«111649_j5815385719271_1_alg».proof.Proof.KI.Launch

noncomputable section

namespace Cert.KernelIdeal.Hand

open Idealize.ShloMosaic Idealize.ShloMosaic.TcCoe
open Idealize.SL Idealize.SL.RA Idealize.SL.BI
open scoped Idealize.SL.BI
open Idealize.SL.Sem
open Idealize.ShloMosaic.Rounds
open Cert.KernelIdeal Cert.KernelIdeal.Gen

variable {F : FTy → Type} [FloatOps F]

variable (m : (ℓ : Loc nD τ sig) → Buf (Elt F) ℓ) (ρ : Dev nD → PrngReg)

/-- The program's run, every unscoped buffer read at the end. -/
theorem run_main : θ_run defs (onTc (τ := τ) (main (F := F))) ⟨m, fun _ => 0, ρ⟩
    (fun r => ∀ c : Dev nD, ∀ b ∈ Pipeline.ucRefs τ sig, r.2.mem ((c : Thread nD τ).1, b) = W3 m (dat m) c b) :=
  run_of m ρ (dat m) (A_eq m) (fun _ => rfl) (fun _ => rfl) (fun _ => rfl) (fun _ => rfl) (fun _ _ => rfl) (fun _ _ => rfl)
    (fun c => (body_obligation m c).loose) (hin m) (hout m)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c _ (mem_uc main_arg0 (by decide))).trans (W3_main_arg0 m (dat m) (A_eq m) c),
       (h c _ (mem_uc main_arg1 (by decide))).trans (W3_main_arg1 m (dat m) c)⟩)
    (run_main m ρ)

end Cert.KernelIdeal.Hand

end
-- ==== Proof.KI.Pieces.lean ====
/-
  What the runs' pieces are, as values: the scratch after a point is the body's own arithmetic term.

  A store through the whole-buffer rectangle at offset zero, last, leaves its payload whatever was stored before; a load
  of what one such store left reads that payload.  So after a resetting point the scratch holds the tile's term over the
  zero vector, after any other point the tile's term over what the point before left, and at a storing point the output's
  buffer holds the same.
-/
import proofs.«111649_j5815385719271_1_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offset of every load and store of the body: the origin. -/
theorem hz : (![0, 0] : Fin 2 → Nat) = fun _ => 0 := by funext a; match a with | ⟨0, _⟩ => rfl | ⟨1, _⟩ => rfl

set_option maxHeartbeats 1000000 in
theorem accAfter_mid_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : ¬atLast i) (x0 x1 : Vec F S1024x256 .f32) (x2 : Vec F S1024x1 .i32) (x3 : Vec F S1x1024 .i32) (xs : Vec F S1024x1 .f32) :
    accAfter_mid c i arg2 harg2 arg3 harg3 arg4 harg4 arg5 harg5 arg6 harg6 arg7 harg7 hc0 hc1 x0 x1 x2 x3 xs = k0_pay1 (k0_pay3 x0 x1 x2 x3 xs) := by
  unfold accAfter_mid
  rw [View.read_writes_eq_canon _ _ _ (accCover_mid c i arg2 harg2 arg3 harg3 arg4 harg4 arg5 harg5 arg6 harg6 arg7 harg7 hc0 hc1 x0 x1 x2 x3 xs)]
  unfold tileRun_mid; dsimp only; sl_unfold_words
  rw [View.canon_unit_zero (S := S1024x1) hz]
  simp only [View.readAt_eq_ld, harg2.read_unread, harg3.read_unread, harg4.read_unread, harg5.read_unread, harg7.read_unread, View.ld_unit_zero (S := S1024x256) hz, View.ld_unit_zero (S := S1024x1) hz, View.ld_unit_zero (S := S1x1024) hz]

set_option maxHeartbeats 1000000 in
theorem accAfter_last_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : atLast i) (x0 x1 : Vec F S1024x256 .f32) (x2 : Vec F S1024x1 .i32) (x3 : Vec F S1x1024 .i32) (xs : Vec F S1024x1 .f32) :
    accAfter_last c i arg2 harg2 arg3 harg3 arg4 harg4 arg5 harg5 arg6 harg6 arg7 harg7 hc0 hc1 x0 x1 x2 x3 xs = k0_pay1 (k0_pay3 x0 x1 x2 x3 xs) := by
  unfold accAfter_last
  rw [View.read_writes_eq_canon _ _ _ (accCover_last c i arg2 harg2 arg3 harg3 arg4 harg4 arg5 harg5 arg6 harg6 arg7 harg7 hc0 hc1 x0 x1 x2 x3 xs)]
  unfold tileRun_last; dsimp only; sl_unfold_words
  rw [View.canon_unit_zero (S := S1024x1) hz]
  simp only [View.readAt_eq_ld, harg2.read_unread, harg3.read_unread, harg4.read_unread, harg5.read_unread, harg7.read_unread, View.ld_unit_zero (S := S1024x256) hz, View.ld_unit_zero (S := S1024x1) hz, View.ld_unit_zero (S := S1x1024) hz]

set_option maxHeartbeats 1000000 in
theorem outAfter_last_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : ¬atFirst i) (hc1 : atLast i) (x0 x1 : Vec F S1024x256 .f32) (x2 : Vec F S1024x1 .i32) (x3 : Vec F S1x1024 .i32) (xs : Vec F S1024x1 .f32) :
    outAfter_last c i arg2 harg2 arg3 harg3 arg4 harg4 arg5 harg5 arg6 harg6 arg7 harg7 hc0 hc1 x0 x1 x2 x3 xs = k0_pay1 (k0_pay3 x0 x1 x2 x3 xs) := by
  unfold outAfter_last
  rw [View.read_writes_eq_canon _ _ _ (outCover_last c i arg2 harg2 arg3 harg3 arg4 harg4 arg5 harg5 arg6 harg6 arg7 harg7 hc0 hc1 x0 x1 x2 x3 xs)]
  unfold tileRun_last; dsimp only; sl_unfold_words
  rw [View.canon_unit_zero (S := S1024x1) hz]
  simp only [View.readAt_eq_ld, harg2.read_unread, harg3.read_unread, harg4.read_unread, harg5.read_unread, harg7.read_unread, View.ld_unit_zero (S := S1024x256) hz, View.ld_unit_zero (S := S1024x1) hz, View.ld_unit_zero (S := S1x1024) hz, View.readCov_unit_zero (S := S1024x1) _ hz]

set_option maxHeartbeats 1000000 in
theorem accAfter_first_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (hc0 : atFirst i) (hc1 : ¬atLast i) (x0 x1 : Vec F S1024x256 .f32) (x2 : Vec F S1024x1 .i32) (x3 : Vec F S1x1024 .i32) :
    accAfter_first c i arg2 harg2 arg3 harg3 arg4 harg4 arg5 harg5 arg6 harg6 arg7 harg7 hc0 hc1 x0 x1 x2 x3 = k0_pay1 (k0_pay3 x0 x1 x2 x3 (k0_pay2 (F := F))) := by
  unfold accAfter_first
  rw [View.read_writes_eq_canon _ _ _ (accCover_first c i arg2 harg2 arg3 harg3 arg4 harg4 arg5 harg5 arg6 harg6 arg7 harg7 hc0 hc1 x0 x1 x2 x3)]
  unfold tileRun_first; dsimp only; sl_unfold_words
  rw [View.canon_cons_unit_zero (S := S1024x1) hz]
  simp only [View.readAt_eq_ld, harg2.read_unread, harg3.read_unread, harg4.read_unread, harg5.read_unread, harg7.read_unread, View.ld_unit_zero (S := S1024x256) hz, View.ld_unit_zero (S := S1024x1) hz, View.ld_unit_zero (S := S1x1024) hz, View.readCov_unit_zero (S := S1024x1) _ hz]

end Cert.KernelIdeal.Hand

end
-- ==== Proof.Spec.lean ====
/-
  The value both programs compute, stated once, element by element, over the extended reals.

  For an 8192 × 256 array x and 8192 labels, the similarity of rows r and c is their inner product
  sim r c = Σ_k x[r,k] · x[c,k].  A pair of the same label contributes 1 − sim when sim < 1 (posTerm), a pair of
  different labels contributes sim when sim > 0.3 (negTerm); the literals are the two binary32 words the programs
  carry, never evaluated.  A row's loss is its positive terms summed plus its negative terms summed, each sum started
  at the zero word; the result is the rows' losses summed, started at the zero word, divided by the word of 8192.

  The kernel reaches the same number tile by tile: the columns are cut into eight stretches of 1024, each stretch
  contributes (zero + its positive terms) + (zero + its negative terms) to a running sum started at the zero word.
  Only the commutativity and associativity of addition on the extended reals joins the two (regroup_row): no
  term is moved across a product, so nothing needs the inputs to be finite.
-/
import Idealize.ShloMosaic.PureOps.Ideal
import Idealize.ShloMosaic.PureOps.Ideal.Laws
import Idealize.ShloMosaic.Lib.ValueIdx

noncomputable section

open scoped BigOperators

namespace Contrastive

open Idealize.ShloMosaic Idealize.ShloMosaic.ValueIdx

/-- The array of rows and the labels, as the programs hold them at the exact instance. -/
abbrev Rows : Type := (⟨2, ![8192, 256]⟩ : Shape).Idx → EReal
abbrev Labels : Type := (⟨1, ![8192]⟩ : Shape).Idx → BitVec 32

/-- The words of 1, of 0.3 rounded to binary32, of 0 and of 8192. -/
abbrev one : EReal := Ideal.ofBits .f32 0x3F800000#32
abbrev margin : EReal := Ideal.ofBits .f32 0x3E99999A#32
abbrev zero : EReal := Ideal.ofBits .f32 0x00000000#32
abbrev count : EReal := Ideal.ofBits .f32 0x46000000#32

/-- The inner product of rows r and c. -/
def sim (x : Rows) (r c : Fin 8192) : EReal := ∑ k : Fin 256, x (ix2 r k) * x (ix2 c k)

/-- What a pair of labels a, b at similarity s adds to the positive sum: 1 − s if the labels agree and s < 1. -/
def posTerm (a b : BitVec 32) (s : EReal) : EReal :=
  Scalar.select (IntOp.andi (IntOp.cmpi .eq a b) (FloatOps.cmpf (F := Ideal) (φ := .f32) .olt s one)) (one - s) zero

/-- What it adds to the negative sum: s if the labels differ and s > 0.3. -/
def negTerm (a b : BitVec 32) (s : EReal) : EReal :=
  Scalar.select (IntOp.andi (~~~(IntOp.cmpi .eq a b)) (FloatOps.cmpf (F := Ideal) (φ := .f32) .ogt s margin)) s zero

/-- Row r's loss: its positive terms summed and its negative terms summed, each from the zero word. -/
def rowLoss (x : Rows) (tg : Labels) (r : Fin 8192) : EReal :=
  (zero + ∑ c : Fin 8192, posTerm (tg (ix1 r)) (tg (ix1 c)) (sim x r c))
    + (zero + ∑ c : Fin 8192, negTerm (tg (ix1 r)) (tg (ix1 c)) (sim x r c))

/-- The result: the rows' losses summed from the zero word, over the word of 8192. -/
def loss (x : Rows) (tg : Labels) : EReal := Ideal.div (zero + ∑ r : Fin 8192, rowLoss x tg r) count

/-- Column q of stretch j. -/
def col (j : Fin 8) (q : Fin 1024) : Fin 8192 := ⟨j.val * 1024 + q.val, by have := j.isLt; have := q.isLt; omega⟩

/-- What stretch j of the columns adds to row r's running sum. -/
def tileLoss (x : Rows) (tg : Labels) (r : Fin 8192) (j : Fin 8) : EReal :=
  (zero + ∑ q : Fin 1024, posTerm (tg (ix1 r)) (tg (ix1 (col j q))) (sim x r (col j q)))
    + (zero + ∑ q : Fin 1024, negTerm (tg (ix1 r)) (tg (ix1 (col j q))) (sim x r (col j q)))

/-- Row r's running sum after the first n stretches, started at the zero word. -/
def runSum (x : Rows) (tg : Labels) (r : Fin 8192) : (n : Nat) → n ≤ 8 → EReal
  | 0, _ => zero
  | n + 1, h => runSum x tg r n (Nat.le_of_succ_le h) + tileLoss x tg r ⟨n, h⟩

end Contrastive

end
-- ==== Proof.KI.Blocks.lean ====
/-
  The input blocks as entries of the launch arrays.

  Point t = 8·i + j of the 8 × 8 grid reads rows 1024·i … 1024·i + 1023 of the rows array through its row window and
  rows 1024·j … 1024·j + 1023 through its column window; the labels of the same rows through the label column and
  the label row.  The two label arrays are the label vector cast to [8192, 1] and to [1, 8192], and a cast keeps the
  row-major position; the rows array is not written before the region.  An element of a block sits in its array at
  block index × block size + its coordinate inside the block, on each axis.
-/
import proofs.«111649_j5815385719271_1_alg».proof.Proof.KI.Setup
import proofs.«111649_j5815385719271_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Idealize.ShloMosaic.StableHlo (after_cons after_nil reshape_result reshape_result_ne)
open Cert.KernelIdeal Cert.KernelIdeal.Gen

variable {F : FTy → Type} [FloatOps F]
variable (m : (ℓ : Loc nD τ sig) → Buf (Elt F) ℓ)

/-! ## The grid point's two block coordinates -/

/-- The row block of point t = 8·i + j is i, -/
def rowBlk (t : Fin cfg0.N) : Fin 8 := ⟨t.val / 8, by have := t.isLt; have : cfg0.N = 64 := N_0; omega⟩
/-- and its column block is j. -/
def colBlk (t : Fin cfg0.N) : Fin 8 := ⟨t.val % 8, Nat.mod_lt _ (by decide)⟩

/-- The printed index maps over the grid: the row windows sit at block (i, 0), the column windows at block (j, 0)
    of the rows array and (0, j) of the label row. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

/-! ## The arrays the region finds -/

/-- The rows array is as launched: the two reshapes do not write it. -/
theorem V1_rows (c : Dev nD) : V1 m c main_arg0 = m ((c : Thread nD τ).loc main_arg0) := by
  dsimp only [V1, W1, hostOps0]
  after_results

/-- The label column is the label vector cast to [8192, 1], -/
theorem V1_rowLabels (c : Dev nD) :
    (V1 m c main_v0 : S8192x1.Idx → Elt F .i32)
      = shapeCast S8192x1 (m ((c : Thread nD τ).loc main_arg1) : S8192.Idx → Elt F .i32) shapeCasts_S8192_S8192x1 := by
  dsimp only [V1, W1, hostOps0]
  after_results
  rfl

/-- and the label row is the label vector cast to [1, 8192]. -/
theorem V1_colLabels (c : Dev nD) :
    (V1 m c main_v1 : S1x8192.Idx → Elt F .i32)
      = shapeCast S1x8192 (m ((c : Thread nD τ).loc main_arg1) : S8192.Idx → Elt F .i32) shapeCasts_S8192_S1x8192 := by
  dsimp only [V1, W1, hostOps0]
  after_results
  rfl

/-! ## The input blocks, entry by entry -/

/-- Row p, column k of the row window's block at point t is row 1024·i + p of the rows array. -/
theorem iblk_rows_apply (c : Dev nD) (t : Fin cfg0.N) (p : Fin 1024) (k : Fin 256) :
    (iblk m c 0 t : Vec F S1024x256 .f32) (ix2 p k)
      = (m ((c : Thread nD τ).loc main_arg0) : S8192x256.Idx → Elt F .f32) (ix2 (Contrastive.col (rowBlk t) p) k) := by
  obtain ⟨e0, e1, -⟩ := idx_facts t
  unfold iblk
  rw [View.read_apply]
  show V1 m c main_arg0 _ = _
  rw [V1_rows]
  congr 1
  funext a
  apply Fin.ext
  match a with
  | ⟨0, _⟩ => show win0_0.index t (0 : Fin 2) * 1024 + 1 * p.val = t.val / 8 * 1024 + p.val; rw [e0]; omega
  | ⟨1, _⟩ => show win0_0.index t (1 : Fin 2) * 256 + 1 * k.val = k.val; rw [e1]; omega

/-- Row q, column k of the column window's block at point t is row 1024·j + q of the rows array. -/
theorem iblk_cols_apply (c : Dev nD) (t : Fin cfg0.N) (q : Fin 1024) (k : Fin 256) :
    (iblk m c 1 t : Vec F S1024x256 .f32) (ix2 q k)
      = (m ((c : Thread nD τ).loc main_arg0) : S8192x256.Idx → Elt F .f32) (ix2 (Contrastive.col (colBlk t) q) k) := by
  obtain ⟨-, -, e0, e1, -⟩ := idx_facts t
  unfold iblk
  rw [View.read_apply]
  show V1 m c main_arg0 _ = _
  rw [V1_rows]
  congr 1
  funext a
  apply Fin.ext
  match a with
  | ⟨0, _⟩ => show win0_1.index t (0 : Fin 2) * 1024 + 1 * q.val = t.val % 8 * 1024 + q.val; rw [e0]; omega
  | ⟨1, _⟩ => show win0_1.index t (1 : Fin 2) * 256 + 1 * k.val = k.val; rw [e1]; omega

/-- Entry p of the row labels' block at point t is label 1024·i + p. -/
theorem iblk_rowLabels_apply (c : Dev nD) (t : Fin cfg0.N) (p : Fin 1024) :
    (iblk m c 2 t : Vec F S1024x1 .i32) (ix2 p (0 : Fin 1))
      = (m ((c : Thread nD τ).loc main_arg1) : S8192.Idx → Elt F .i32) (ix1 (Contrastive.col (rowBlk t) p)) := by
  obtain ⟨-, -, -, -, e0, e1, -⟩ := idx_facts t
  unfold iblk
  rw [View.read_apply]
  show (V1 m c main_v0 : S8192x1.Idx → Elt F .i32) _ = _
  rw [V1_rowLabels]
  refine shapeCast_apply (s := S8192) (t := S8192x1) _ _ _ _ ?_
  rw [Shape.rowMajor_val_two, Shape.rowMajor_val_one]
  show t.val / 8 * 1024 + p.val = (win0_2.index t (0 : Fin 2) * 1024 + 1 * p.val) * 1 + (win0_2.index t (1 : Fin 2) * 1 + 1 * 0)
  rw [e0, e1]; omega

/-- Entry q of the column labels' block at point t is label 1024·j + q. -/
theorem iblk_colLabels_apply (c : Dev nD) (t : Fin cfg0.N) (q : Fin 1024) :
    (iblk m c 3 t : Vec F S1x1024 .i32) (ix2 (0 : Fin 1) q)
      = (m ((c : Thread nD τ).loc main_arg1) : S8192.Idx → Elt F .i32) (ix1 (Contrastive.col (colBlk t) q)) := by
  obtain ⟨-, -, -, -, -, -, e0, e1, -⟩ := idx_facts t
  unfold iblk
  rw [View.read_apply]
  show (V1 m c main_v1 : S1x8192.Idx → Elt F .i32) _ = _
  rw [V1_colLabels]
  refine shapeCast_apply (s := S8192) (t := S1x8192) _ _ _ _ ?_
  rw [Shape.rowMajor_val_two, Shape.rowMajor_val_one]
  show t.val % 8 * 1024 + q.val = (win0_3.index t (0 : Fin 2) * 1 + 1 * 0) * 8192 + (win0_3.index t (1 : Fin 2) * 1024 + 1 * q.val)
  rw [e0, e1]; omega

end Cert.KernelIdeal.Hand

end
-- ==== Proof.KI.Tail.lean ====
/-
  The program's tail: the per-row losses summed, divided by the number of rows.

  After the region the program sums the [8192, 1] array of row losses over both axes from the zero word and divides by
  the word of 8192.  At the ideal values the sum over both axes is the sum over every index, the sum over the indices
  of an [8192, 1] array is the sum over its rows, and the host's quotient is the ideal quotient: the result is the loss
  of the specification, whatever the other buffers hold.
-/
import proofs.«111649_j5815385719271_1_alg».proof.Proof.Gen.KernelIdeal.Launch
import proofs.«111649_j5815385719271_1_alg».proof.Proof.Spec
import Idealize.ShloMosaic.Lib.StableHlo.Run
import Idealize.ShloMosaic.Lib.ValueIdx
import Idealize.ShloMosaic.PureOps.Ideal.Laws
import Mathlib.Algebra.BigOperators.Fin

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

/-- The program's last four operations: the rows' losses summed from the zero word, over the word of 8192.
    Whatever else the buffers hold, if the per-row array holds each row's loss the result is the loss. -/
theorem tail_value (x : Contrastive.Rows) (tg : Contrastive.Labels) (W : Valuation τ sig (Elt Ideal))
    (hW : (W (Proc.devRef .tc main_v2) : S8192x1.Idx → EReal) = fun idx => Contrastive.rowLoss x tg (idx 0)) :
    (StableHlo.after hostOps1 W (Proc.devRef .tc main_v4) : S_.Idx → EReal) = fun _ => Contrastive.loss x tg := by
  dsimp only [hostOps1]
  after_results
  rw [hW]
  funext j
  show Ideal.div (Ideal.hostReduceAdd reducesTo_S8192x1_S_d0_1 (fun idx : S8192x1.Idx => Contrastive.rowLoss x tg (idx 0)) (Ideal.ofBits .f32 0x00000000#32) j) (Ideal.ofBits .f32 0x46000000#32) = _
  rw [Ideal.hostReduceAdd_total reducesTo_S8192x1_S_d0_1 (fun b => b.elim0), sum_idx2]
  simp only [Fin.sum_univ_one]
  rfl

end Cert.KernelIdeal.Hand

end
-- ==== Proof.Regroup.lean ====
/-
  The running sum after all eight column stretches is the row's loss.

  The zero word is the real 0, so a running sum is the plain sum of its stretches' contributions; the
  contribution of a stretch splits into its positive and its negative part; and the pairs
  (stretch j, offset q) run through the columns 0 … 8191 exactly once, by c = 1024·j + q.
  Only the commutativity and associativity of + on the extended reals is used.
-/
import proofs.«111649_j5815385719271_1_alg».proof.Proof.Spec
import Mathlib.Algebra.BigOperators.Fin
import Mathlib.Data.Fintype.BigOperators

noncomputable section

open scoped BigOperators

namespace Contrastive

open Idealize.ShloMosaic Idealize.ShloMosaic.ValueIdx

/-- The zero word is the extended real 0. -/
theorem zero_eq : zero = 0 := Ideal.ofBits_zero_f32

/-- The pairs (stretch, offset) are the columns: c = 1024·j + q, with j = c / 1024 and q = c % 1024. -/
def colEquiv : Fin 8 × Fin 1024 ≃ Fin 8192 where
  toFun p := col p.1 p.2
  invFun c := (⟨c.val / 1024, by have := c.isLt; omega⟩, ⟨c.val % 1024, Nat.mod_lt _ (by decide)⟩)
  left_inv := by
    rintro ⟨j, q⟩
    have hj := j.isLt
    have hq := q.isLt
    refine Prod.ext (Fin.ext ?_) (Fin.ext ?_)
    · show (j.val * 1024 + q.val) / 1024 = j.val
      omega
    · show (j.val * 1024 + q.val) % 1024 = q.val
      omega
  right_inv := by
    intro c
    refine Fin.ext ?_
    show c.val / 1024 * 1024 + c.val % 1024 = c.val
    omega

/-- A sum over the columns is the sum over the stretches of the sums over the offsets. -/
theorem sum_cols (f : Fin 8192 → EReal) : ∑ c : Fin 8192, f c = ∑ j : Fin 8, ∑ q : Fin 1024, f (col j q) := by
  rw [← Equiv.sum_comp colEquiv f, Fintype.sum_prod_type]
  rfl

/-- The running sum after n stretches is the sum of the first n stretches' contributions. -/
theorem runSum_eq_sum (x : Rows) (tg : Labels) (r : Fin 8192) :
    ∀ (n : Nat) (h : n ≤ 8), runSum x tg r n h = ∑ j : Fin n, tileLoss x tg r (Fin.castLE h j)
  | 0, _ => by simp only [runSum, zero_eq, Finset.univ_eq_empty, Finset.sum_empty]
  | n + 1, h => by
    rw [runSum, runSum_eq_sum x tg r n (Nat.le_of_succ_le h), Fin.sum_univ_castSucc]
    rfl

/-- After all eight stretches the running sum is the row's loss. -/
theorem runSum_eq_rowLoss (x : Rows) (tg : Labels) (r : Fin 8192) :
    runSum x tg r 8 (le_refl 8) = rowLoss x tg r := by
  rw [runSum_eq_sum x tg r 8 (le_refl 8)]
  have hcast : ∀ j : Fin 8, Fin.castLE (le_refl 8) j = j := fun j => rfl
  simp only [hcast, tileLoss, rowLoss, zero_eq, zero_add]
  rw [Finset.sum_add_distrib,
    sum_cols (fun c => posTerm (tg (ix1 r)) (tg (ix1 c)) (sim x r c)),
    sum_cols (fun c => negTerm (tg (ix1 r)) (tg (ix1 c)) (sim x r c))]

end Contrastive

end
-- ==== Proof.TileValue.lean ====
/-
  The kernel body's arithmetic, read at an index, at the ideal values.

  One grid point holds a block xi of 1024 rows, a block xj of 1024 rows, the rows' labels as a column and the other
  rows' labels as a row, and the running sum as a column.  The value it writes back at row p is

      acc[p] + ((0 + Σ_q posTerm(sr[p], sc[q], s[p,q])) + (0 + Σ_q negTerm(sr[p], sc[q], s[p,q]))),
      s[p,q] = Σ_k xi[p,k] · xj[q,k],

  because: the product contracts axis 1 of both blocks into a zero accumulator; a format change is the identity at the
  ideal values; the two label arrays are a column and a row broadcast over the tile; the two masks and the two selected
  arrays are pointwise, and on one bit the exclusive or with 1 is the complement; each lane sum runs over axis 1 from the
  neutral element, and 0 + x = x puts the zero word back in front of each sum as the specification writes it.
-/
import proofs.«111649_j5815385719271_1_alg».proof.Proof.Gen.KernelIdeal.Skeleton
import proofs.«111649_j5815385719271_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The product of the two row blocks

The record contracts axis 1 of both operands; axis 0 of the left operand is the result's row, axis 0 of the right operand
the result's column. -/

theorem lhs_dot_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_dot_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_dot_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_dot_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The product into a zero accumulator, read at (p, q): the inner product of row p of the left block and row q of the
    right block. -/
theorem matmul_zero_apply (a b : FVec Ideal S1024x256 .bf16) (p q : Fin 1024) :
    matmul dot_S1024x256_S1024x256_S1024x1024_1_1_0_0_n_n none a b (constant (F := Ideal) S1024x1024 .f32 0x00000000#32) (ix2 p q)
      = ∑ k : Fin 256, a (ix2 p k) * b (ix2 q k) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun ax => Fin.ext (by
    match ax with
    | ⟨0, _⟩ => exact lhs_dot_0 _ _
    | ⟨1, _⟩ => exact (lhs_dot_1 _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun ax => Fin.ext (by
    match ax with
    | ⟨0, _⟩ => exact rhs_dot_0 _ _
    | ⟨1, _⟩ => exact (rhs_dot_1 _ _).trans hk)
  rw [el, er]

/-! ## The layout operations at an index -/

/-- A column [1024, 1] broadcast to [1024, 1024] reads, at (p, q), the column at p. -/
theorem broadcastTo_col_apply {α : Type} (v : S1024x1.Idx → α) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ =>
    show p.val = if (1024 : Nat) = 1 then 0 else p.val
    rw [if_neg (by decide)]
  | ⟨1, _⟩ =>
    show (0 : Nat) = if (1 : Nat) = 1 then 0 else q.val
    rw [if_pos rfl]

/-- A vector [1024] cast to a column [1024, 1] reads, at (p, u), the vector at p. -/
theorem shapeCast_col_apply {α : Type} (v : S1024.Idx → α) (h : S1024.ShapeCasts S1024x1) (p : Fin 1024) (u : Fin 1) :
    shapeCast S1024x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- The sum over the lanes (axis 1) of a [1024, 1024] array, read at row p. -/
theorem rowSum_apply (src : FVec Ideal S1024x1024 .f32) (h : S1024x1024.Reduces [1] S1024) (hφ : FKind.Formats .f32)
    (hacc : (0x00000000#32 : BitVec 32) = FKind.add.neutral .f32 hφ) (p : Fin 1024) :
    multiReduction (F := Ideal) .add [1] S1024 src 0x00000000#32 h hφ hacc (ix1 p) = ∑ q : Fin 1024, src (ix2 p q) := by
  refine (Ideal.multiReduction_add_single src _ h hφ hacc (ix1 p)).trans ?_
  refine Finset.sum_congr rfl fun k _ => congrArg src ?_
  funext ax
  match ax with
  | ⟨0, _⟩ => rfl
  | ⟨1, _⟩ => rfl

/-- On one bit, exclusive or with 1 is the complement. -/
theorem xori_one (b : BitVec 1) : IntOp.xori b 1#1 = ~~~b := by
  rcases BitVec.eq_zero_or_eq_one b with h | h <;> subst h <;> decide

/-! ## One element of the two masked arrays -/

/-- The positive array at an index: the positive term of the two labels and the similarity there. -/
theorem pos_elt (l r : IVec S1024x1024 32) (s : FVec Ideal S1024x1024 .f32) (i : S1024x1024.Idx) :
    select (andi (cmpi .eq l r) (cmpf .olt s (broadcast S1024x1024 (Scalar.ofBits (F := Ideal) .f32 0x3F800000#32))))
        (subf (broadcast S1024x1024 (Scalar.ofBits (F := Ideal) .f32 0x3F800000#32)) s)
        (broadcast S1024x1024 (Scalar.ofBits (F := Ideal) .f32 0x00000000#32)) i
      = Contrastive.posTerm (l i) (r i) (s i) := rfl

/-- The negative array at an index: the negative term of the two labels and the similarity there. -/
theorem neg_elt (l r : IVec S1024x1024 32) (s : FVec Ideal S1024x1024 .f32) (i : S1024x1024.Idx) :
    select (andi (xori (cmpi .eq l r) (constantI S1024x1024 1 1#1)) (cmpf .ogt s (broadcast S1024x1024 (Scalar.ofBits (F := Ideal) .f32 0x3E99999A#32))))
        s (broadcast S1024x1024 (Scalar.ofBits (F := Ideal) .f32 0x00000000#32)) i
      = Contrastive.negTerm (l i) (r i) (s i) := by
  show Scalar.select (IntOp.andi (IntOp.xori (IntOp.cmpi .eq (l i) (r i)) 1#1) _) _ _ = _
  rw [xori_one]
  rfl

theorem pay3_apply (xi xj : Vec Ideal S1024x256 .f32) (sr : Vec Ideal S1024x1 .i32) (sc : Vec Ideal S1x1024 .i32)
    (acc : Vec Ideal S1024x1 .f32) (p : Fin 1024) :
    k0_pay3 (F := Ideal) xi xj sr sc acc (ix2 p (0 : Fin 1))
      = acc (ix2 p 0)
        + ((Contrastive.zero + ∑ q : Fin 1024, Contrastive.posTerm (sr (ix2 p 0)) (sc (ix2 0 q)) (∑ k : Fin 256, xi (ix2 p k) * xj (ix2 q k)))
          + (Contrastive.zero + ∑ q : Fin 1024, Contrastive.negTerm (sr (ix2 p 0)) (sc (ix2 0 q)) (∑ k : Fin 256, xi (ix2 p k) * xj (ix2 q k)))) := by
  unfold k0_pay3
  rw [addf_apply, addf_apply, shapeCast_col_apply, shapeCast_col_apply]
  have hz : ∀ x : EReal, x = Contrastive.zero + x := fun x => by
    rw [show Contrastive.zero = 0 from Ideal.ofBits_zero_f32, zero_add]
  refine congrArg (acc (ix2 p 0) + ·) (congrArg₂ (· + ·)
    (((rowSum_apply _ _ _ _ p).trans (Finset.sum_congr rfl fun q _ => ?_)).trans (hz _))
    (((rowSum_apply _ _ _ _ p).trans (Finset.sum_congr rfl fun q _ => ?_)).trans (hz _)))
  · refine (pos_elt _ _ _ _).trans ?_
    rw [broadcastTo_col_apply, broadcastTo_1b_ab_apply, shapeCast_self, shapeCast_self, matmul_zero_apply]
    rfl
  · refine (neg_elt _ _ _ _).trans ?_
    rw [broadcastTo_col_apply, broadcastTo_1b_ab_apply, shapeCast_self, shapeCast_self, matmul_zero_apply]
    rfl

/-- The value stored back: a cast to the same shape is the identity. -/
theorem pay1_apply (v : FVec Ideal S1024x1 .f32) : k0_pay1 (F := Ideal) v = v := by
  unfold k0_pay1
  exact shapeCast_self v _

/-- The value the running sum starts from: the zero word everywhere. -/
theorem pay2_apply (i : S1024x1.Idx) : k0_pay2 (F := Ideal) i = Contrastive.zero := by
  unfold k0_pay2
  rw [shapeCast_self]
  rfl

end Cert.KernelIdeal.Tile

end
-- ==== Proof.KI.Value.lean ====
/-
  The kernel's value at the ideal values.

  Point t = 8·i + j of the grid adds to row p of the running sum the contribution of column stretch j to row
  1024·i + p: its four blocks are the rows and labels of row block i and of column block j, and the body's arithmetic
  at row p is what it found there plus that contribution.  A point with j = 0 starts from the zero word, so after
  point t the running sum holds the contributions of stretches 0 … j summed from the zero word; at j = 7 that is the
  row's loss, and the point copies it to the output's buffer, which is written back to rows 1024·i … 1024·i + 1023 of
  the result array.  The eight storing points' blocks cover the array, so the array ends holding each row's loss.
-/
import proofs.«111649_j5815385719271_1_alg».proof.Proof.KI.Pieces
import proofs.«111649_j5815385719271_1_alg».proof.Proof.KI.Blocks
import proofs.«111649_j5815385719271_1_alg».proof.Proof.KI.Tail
import proofs.«111649_j5815385719271_1_alg».proof.Proof.Regroup
import proofs.«111649_j5815385719271_1_alg».proof.Proof.TileValue
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The rows and the labels in core c's launch memory. -/
abbrev rowsOf (c : Dev nD) : Contrastive.Rows := m ((c : Thread nD τ).loc main_arg0)
abbrev labelsOf (c : Dev nD) : Contrastive.Labels := m ((c : Thread nD τ).loc main_arg1)

/-! ## One grid point -/

/-- What one point leaves at row p of the running sum: what it found there plus the contribution of column stretch j to
    row 1024·i + p, when its four blocks are the rows and labels of row block i and column block j. -/
theorem point_value (x : Contrastive.Rows) (tg : Contrastive.Labels) (i j : Fin 8)
    (xi xj : Vec Ideal S1024x256 .f32) (sr : Vec Ideal S1024x1 .i32) (sc : Vec Ideal S1x1024 .i32) (acc : Vec Ideal S1024x1 .f32)
    (hxi : ∀ (p : Fin 1024) (k : Fin 256), xi (ix2 p k) = x (ix2 (Contrastive.col i p) k))
    (hxj : ∀ (q : Fin 1024) (k : Fin 256), xj (ix2 q k) = x (ix2 (Contrastive.col j q) k))
    (hsr : ∀ p : Fin 1024, sr (ix2 p (0 : Fin 1)) = tg (ix1 (Contrastive.col i p)))
    (hsc : ∀ q : Fin 1024, sc (ix2 (0 : Fin 1) q) = tg (ix1 (Contrastive.col j q)))
    (p : Fin 1024) :
    k0_pay1 (F := Ideal) (k0_pay3 (F := Ideal) xi xj sr sc acc) (ix2 p (0 : Fin 1))
      = acc (ix2 p 0) + Contrastive.tileLoss x tg (Contrastive.col i p) j := by
  rw [Tile.pay1_apply, Tile.pay3_apply]
  unfold Contrastive.tileLoss Contrastive.sim
  simp only [hxi, hxj, hsr, hsc]

/-- A running sum does not depend on how its row and its count are written. -/
theorem runSum_eq_of (x : Contrastive.Rows) (tg : Contrastive.Labels) {r r' : Fin 8192} {a b : Nat} (hr : r = r') (e : a = b)
    (ha : a ≤ 8) (hb : b ≤ 8) : Contrastive.runSum x tg r a ha = Contrastive.runSum x tg r' b hb := by
  subst hr; subst e; rfl

/-! ## The running sum at every point -/

/-- A resetting point's result is the body's arithmetic over the zero column. -/
theorem accAt_reset (c : Dev nD) (t : Fin cfg0.N) (h0 : t.val % 8 = 0) :
    accAt m c t.val t.isLt
      = k0_pay1 (F := Ideal) (k0_pay3 (F := Ideal) (iblk m c 0 t) (iblk m c 1 t) (iblk m c 2 t) (iblk m c 3 t) (k0_pay2 (F := Ideal))) := by
  have h1 : ¬t.val % 8 = 7 := by omega
  rw [accAt_first m c t h0 h1, accAfter_first_eq]

/-- Any other point's result is the body's arithmetic over what the point before left. -/
theorem accAt_step (c : Dev nD) (t : Fin cfg0.N) (h0 : ¬t.val % 8 = 0) :
    accAt m c t.val t.isLt
      = k0_pay1 (F := Ideal) (k0_pay3 (F := Ideal) (iblk m c 0 t) (iblk m c 1 t) (iblk m c 2 t) (iblk m c 3 t)
          (accAt m c (t.val - 1) (Nat.lt_of_le_of_lt (Nat.sub_le _ _) t.isLt))) := by
  by_cases h1 : t.val % 8 = 7
  · rw [accAt_last m c t h0 h1, accAfter_last_eq]
  · rw [accAt_mid m c t h0 h1, accAfter_mid_eq]

/-- At a storing point the output's buffer holds what the scratch holds. -/
theorem outAt_eq_accAt (c : Dev nD) (t : Fin cfg0.N) (h1 : t.val % 8 = 7) :
    outAt m c t.val t.isLt = accAt m c t.val t.isLt := by
  have h0 : ¬t.val % 8 = 0 := by omega
  rw [outAt_last m c t h0 h1, outAfter_last_eq, accAt_last m c t h0 h1, accAfter_last_eq]

/-- After a resetting point the scratch holds the first stretch's contribution from the zero word. -/
theorem accAt_apply_reset (c : Dev nD) (t : Fin cfg0.N) (h0 : t.val % 8 = 0) (p : Fin 1024) :
    accAt m c t.val t.isLt (ix2 p (0 : Fin 1))
      = Contrastive.runSum (rowsOf m c) (labelsOf m c) (Contrastive.col (rowBlk t) p) (t.val % 8 + 1) (by omega) := by
  rw [accAt_reset m c t h0]
  refine (point_value (rowsOf m c) (labelsOf m c) (rowBlk t) (colBlk t) (iblk m c 0 t) (iblk m c 1 t) (iblk m c 2 t) (iblk m c 3 t)
    (k0_pay2 (F := Ideal)) (iblk_rows_apply m c t) (iblk_cols_apply m c t) (iblk_rowLabels_apply m c t) (iblk_colLabels_apply m c t) p).trans ?_
  rw [Tile.pay2_apply]
  have hj : colBlk t = (⟨0, by decide⟩ : Fin 8) := Fin.ext h0
  rw [hj]
  exact runSum_eq_of (rowsOf m c) (labelsOf m c) rfl (by omega : 0 + 1 = t.val % 8 + 1) (by decide) _

/-- After any other point it holds one more stretch's contribution than after the point before. -/
theorem accAt_apply_step (c : Dev nD) (t : Fin cfg0.N) (h0 : ¬t.val % 8 = 0)
    (ih : ∀ p : Fin 1024, accAt m c (t.val - 1) (Nat.lt_of_le_of_lt (Nat.sub_le _ _) t.isLt) (ix2 p (0 : Fin 1))
      = Contrastive.runSum (rowsOf m c) (labelsOf m c)
          (Contrastive.col (rowBlk ⟨t.val - 1, Nat.lt_of_le_of_lt (Nat.sub_le _ _) t.isLt⟩) p) ((t.val - 1) % 8 + 1) (by omega))
    (p : Fin 1024) :
    accAt m c t.val t.isLt (ix2 p (0 : Fin 1))
      = Contrastive.runSum (rowsOf m c) (labelsOf m c) (Contrastive.col (rowBlk t) p) (t.val % 8 + 1) (by omega) := by
  rw [accAt_step m c t h0]
  refine (point_value (rowsOf m c) (labelsOf m c) (rowBlk t) (colBlk t) (iblk m c 0 t) (iblk m c 1 t) (iblk m c 2 t) (iblk m c 3 t)
    (accAt m c (t.val - 1) (Nat.lt_of_le_of_lt (Nat.sub_le _ _) t.isLt))
    (iblk_rows_apply m c t) (iblk_cols_apply m c t) (iblk_rowLabels_apply m c t) (iblk_colLabels_apply m c t) p).trans ?_
  rw [ih p]
  have hr : rowBlk ⟨t.val - 1, Nat.lt_of_le_of_lt (Nat.sub_le _ _) t.isLt⟩ = rowBlk t :=
    Fin.ext (by show (t.val - 1) / 8 = t.val / 8; omega)
  have e : (t.val - 1) % 8 + 1 = t.val % 8 := by omega
  have hle : t.val % 8 ≤ 8 := by omega
  rw [runSum_eq_of (rowsOf m c) (labelsOf m c) (congrArg (fun i => Contrastive.col i p) hr) e _ hle]
  rfl

/-- THE RUNNING SUM: after point t = 8·i + j, row p of the scratch holds the contributions of the column stretches
    0 … j to row 1024·i + p, summed from the zero word. -/
theorem accAt_eq (c : Dev nD) : ∀ (n : Nat) (hn : n < cfg0.N) (p : Fin 1024),
    accAt m c n hn (ix2 p (0 : Fin 1))
      = Contrastive.runSum (rowsOf m c) (labelsOf m c) (Contrastive.col (rowBlk ⟨n, hn⟩) p) (n % 8 + 1) (by omega)
  | 0, hn, p => accAt_apply_reset m c ⟨0, hn⟩ rfl p
  | n + 1, hn, p => by
    by_cases h0 : (n + 1) % 8 = 0
    · exact accAt_apply_reset m c ⟨n + 1, hn⟩ h0 p
    · exact accAt_apply_step m c ⟨n + 1, hn⟩ h0 (fun p => accAt_eq c n (Nat.lt_of_succ_lt hn) p) p

/-- At a storing point the output's buffer holds each row's loss. -/
theorem outAt_eq (c : Dev nD) (t : Fin cfg0.N) (h1 : t.val % 8 = 7) (p : Fin 1024) :
    outAt m c t.val t.isLt (ix2 p (0 : Fin 1))
      = Contrastive.rowLoss (rowsOf m c) (labelsOf m c) (Contrastive.col (rowBlk t) p) := by
  rw [outAt_eq_accAt m c t h1, accAt_eq m c t.val t.isLt p, ← Contrastive.runSum_eq_rowLoss]
  exact runSum_eq_of (rowsOf m c) (labelsOf m c) rfl (by omega) _ _

/-! ## The result array -/

/-- What the result array ends holding: row r at row r's loss. -/
abbrev lossCol (c : Dev nD) : S8192x1.Idx → EReal := fun idx => Contrastive.rowLoss (rowsOf m c) (labelsOf m c) (idx 0)

/-- The storing point's buffer at any index of the column. -/
theorem outAt_apply (c : Dev nD) (t : Fin cfg0.N) (h1 : t.val % 8 = 7) (j : S1024x1.Idx) :
    outAt m c t.val t.isLt j = Contrastive.rowLoss (rowsOf m c) (labelsOf m c) (Contrastive.col (rowBlk t) (j 0)) := by
  obtain ⟨p, u, rfl⟩ : ∃ (p : Fin 1024) (u : Fin 1), j = ix2 p u := ⟨j 0, j 1, eq_ix2 j⟩
  obtain rfl : u = 0 := Subsingleton.elim _ _
  exact outAt_eq m c t h1 p

/-- What a storing point writes back is its block of that array: block i starts at row 1024·i. -/
theorem flushed_out_eq (c : Dev nD) (t : Fin cfg0.N) (hf : (cfg0.win 4).flush t = true) :
    (dat m c).flushed 4 t = ((cfg0.win 4).blk t).view.read (Elt Ideal) (lossCol m c) := by
  have h1 : t.val % 8 = 7 := (flush0_4 t).mp hf
  obtain ⟨-, -, -, -, -, -, -, -, e0, e1⟩ := idx_facts t
  show (cfg0.win 4).cut (grid0.coords t) ((dat m c).after 4 t) = _
  rw [after_out]
  funext j
  rw [View.read_apply]
  show outAt m c t.val t.isLt j = lossCol m c (((cfg0.win 4).blk t).view.emb j)
  refine (outAt_apply m c t h1 j).trans ?_
  refine congrArg (Contrastive.rowLoss (rowsOf m c) (labelsOf m c)) (Fin.ext ?_)
  show t.val / 8 * 1024 + (j 0).val = win0_4.index t (0 : Fin 2) * 1024 + 1 * (j 0).val
  rw [e0]; omega

/-- An index of the result array is in point t's block iff each coordinate is in the block's range. -/
theorem mem_blk_out (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v2).slice (win0_4.rect t)).set ↔ _
  rw [View.set_slice_whole, Rect.mem_set_unit]
  exact Iff.rfl

/-- Row r of the result array is in the block of the storing point of its row block, 8·(r / 1024) + 7. -/
theorem cover_out (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 64 := N_0
  obtain ⟨t, ht⟩ : ∃ t : Fin cfg0.N, t.val = 8 * ((i 0).val / 1024) + 7 := ⟨⟨8 * ((i 0).val / 1024) + 7, by omega⟩, rfl⟩
  obtain ⟨-, -, -, -, -, -, -, -, e0, e1⟩ := idx_facts t
  refine ⟨t, (flush0_4 t).mpr (by omega), ?_⟩
  rw [mem_blk_out]
  intro a
  match a with
  | ⟨0, _⟩ =>
    show win0_4.index t (0 : Fin 2) * 1024 ≤ (i 0).val ∧ (i 0).val < win0_4.index t (0 : Fin 2) * 1024 + 1024
    rw [e0]; omega
  | ⟨1, _⟩ =>
    show win0_4.index t (1 : Fin 2) * 1 ≤ (i 1).val ∧ (i 1).val < win0_4.index t (1 : Fin 2) * 1 + 1
    rw [e1]; omega

/-- THE RESULT ARRAY after the region: each row's loss. -/
theorem final_out (c : Dev nD) : (dat m c).arrAt 4 cfg0.N = lossCol m c :=
  (dat m c).arrAt_eq_of_cover 4 (lossCol m c) (flushed_out_eq m c) cover_out

end Cert.KernelIdeal.Hand

end
-- ==== Proof.KI.Result.lean ====
/-
  The kernel program's result over the extended reals.

  After the region the per-row array holds each row's loss (the running sums regrouped into the row's two full sums); the
  last stretch of host operations sums that column from the zero word and divides by the word of 8192: Contrastive.loss.
-/
import proofs.«111649_j5815385719271_1_alg».proof.Proof.KI.Frame
import proofs.«111649_j5815385719271_1_alg».proof.Proof.KI.Value

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

/-- What the program leaves in its result buffer. -/
theorem kernel_result (c : Dev nD) :
    W3 m (dat m) c (Proc.devRef .tc main_v4)
      = fun _ => Contrastive.loss (m ((c.tc : Thread nD τ).loc main_arg0)) (m ((c.tc : Thread nD τ).loc main_arg1)) :=
  tail_value (rowsOf m c) (labelsOf m c) (W2 m (dat m) c) ((W2_main_v2 m (dat m) (A_eq m) c).trans (final_out m c))

end Cert.KernelIdeal.Hand

end
-- ==== Proof.RefSide.lean ====
/-
  The reference program computes the specified loss.

  Its result, read one operation at a time: the product of the array with its own transpose is, at row r and column c,
  the inner product of rows r and c; the two broadcasts of the labels put label r and label c side by side; the two
  guarded selections are the positive and the negative term of the pair (r, c); each is summed along the columns from
  the zero word, the two sums are added, the rows are summed from the zero word, and the total is divided by the
  word of 8192.  Every step is a reading of an operation at an index; no arithmetic law is used.
-/
import proofs.«111649_j5815385719271_1_alg».proof.Proof.Gen.ReferenceIdeal.Read
import proofs.«111649_j5815385719271_1_alg».proof.Proof.Spec
import Idealize.ShloMosaic.Lib.ValueIdx
import Idealize.ShloMosaic.PureOps.Ideal.Laws

noncomputable section

open scoped BigOperators

namespace Cert.RefSide

open Cert.ReferenceIdeal Cert.ReferenceIdeal.Gen Idealize.ShloMosaic Idealize.ShloMosaic.TcCoe Idealize.SL.Sem
  Idealize.ShloMosaic.StableHlo Idealize.ShloMosaic.ValueIdx

/-- Entry (r, c) of the product of the array with its transpose is the inner product of rows r and c. -/
theorem sim_eq (x : FVec Ideal S8192x256 .f32) (r c : Fin 8192) :
    Read.val_main_v1 (F := Ideal) x (ix2 r c) = Contrastive.sim x r c := by
  rw [Read.val_main_v1_apply]
  unfold Contrastive.sim
  refine Finset.sum_congr rfl fun k _ => ?_
  rw [Read.val_main_v0_apply]
  have e1 : Read.lidx_main_v1 (ix2 r c) k = ix2 r k :=
    funext fun a => Fin.ext (by match a with | ⟨0, _⟩ => rfl | ⟨1, _⟩ => rfl)
  have e2 : Read.idx_main_v0 (Read.ridx_main_v1 (ix2 r c) k) = ix2 c k :=
    funext fun a => Fin.ext (by match a with | ⟨0, _⟩ => rfl | ⟨1, _⟩ => rfl)
  rw [e1, e2]

/-- The two broadcasts of the labels, compared: at (r, c) the comparison of label r with label c. -/
theorem sameLabel_eq (tg : IVec S8192 32) (r c : Fin 8192) :
    Read.val_main_v6 (F := Ideal) tg (ix2 r c) = IntOp.cmpi .eq (tg (ix1 r)) (tg (ix1 c)) := by
  rw [Read.val_main_v6_apply, Read.val_main_v4_apply, Read.val_main_v5_apply, Read.val_main_v2_apply,
    Read.val_main_v3_apply]
  have e1 : Read.idx_main_v2 (Read.idx_main_v4 (ix2 r c)) = ix1 r :=
    funext fun a => Fin.ext (by match a with | ⟨0, _⟩ => rfl)
  have e2 : Read.idx_main_v3 (Read.idx_main_v5 (ix2 r c)) = ix1 c :=
    funext fun a => Fin.ext (by match a with | ⟨0, _⟩ => rfl)
  rw [e1, e2]

/-- The first guarded selection at (r, c) is the positive term of the pair. -/
theorem pos_eq (x : FVec Ideal S8192x256 .f32) (tg : IVec S8192 32) (r c : Fin 8192) :
    Read.val_main_v16 (F := Ideal) x tg (ix2 r c)
      = Contrastive.posTerm (tg (ix1 r)) (tg (ix1 c)) (Contrastive.sim x r c) := by
  rw [Read.val_main_v16_apply, Read.val_main_v9_apply, Read.val_main_v8_apply, Read.val_main_v15_apply,
    Read.val_main_v7_apply, Read.val_main_v14_apply, Read.val_main_call0_v1_apply, Read.val_main_call0_v0_apply,
    Read.val_main_cst_apply, Read.val_main_cst_1_apply, Read.val_main_cst_2_apply, sameLabel_eq, sim_eq]
  rfl

/-- The second guarded selection at (r, c) is the negative term of the pair. -/
theorem neg_eq (x : FVec Ideal S8192x256 .f32) (tg : IVec S8192 32) (r c : Fin 8192) :
    Read.val_main_v18 (F := Ideal) x tg (ix2 r c)
      = Contrastive.negTerm (tg (ix1 r)) (tg (ix1 c)) (Contrastive.sim x r c) := by
  rw [Read.val_main_v18_apply, Read.val_main_v13_apply, Read.val_main_v10_apply, Read.val_main_v12_apply,
    Read.val_main_v11_apply, Read.val_main_call1_v1_apply, Read.val_main_call1_v0_apply,
    Read.val_main_cst_0_apply, Read.val_main_cst_4_apply, sameLabel_eq, sim_eq]
  rfl

/-- The two column sums of row r, added, are the row's loss. -/
theorem row_eq (x : FVec Ideal S8192x256 .f32) (tg : IVec S8192 32) (r : Fin 8192) :
    Read.val_main_v20 (F := Ideal) x tg (ix1 r) = Contrastive.rowLoss x tg r := by
  rw [Read.val_main_v20_apply, Read.val_main_v17_apply, Read.val_main_v19_apply, Read.val_main_cst_3_apply,
    Read.val_main_cst_5_apply]
  have e1 : ∀ k : Fin 8192, Read.idx_main_v17 (ix1 r) k = ix2 r k := fun k =>
    funext fun a => Fin.ext (by match a with | ⟨0, _⟩ => rfl | ⟨1, _⟩ => rfl)
  have e2 : ∀ k : Fin 8192, Read.idx_main_v19 (ix1 r) k = ix2 r k := fun k =>
    funext fun a => Fin.ext (by match a with | ⟨0, _⟩ => rfl | ⟨1, _⟩ => rfl)
  simp only [e1, e2, pos_eq, neg_eq]
  rfl

/-- A rank-1 index is its one coordinate. -/
def rowEquiv : S8192.Idx ≃ Fin 8192 where
  toFun i := i 0
  invFun := ix1
  left_inv i := (eq_ix1 i).symm
  right_inv _ := rfl

/-- The reference's result is the specified loss. -/
theorem val_eq (x : FVec Ideal S8192x256 .f32) (tg : IVec S8192 32) :
    Read.val_main_v22 (F := Ideal) x tg = fun _ => Contrastive.loss x tg := by
  funext i
  rw [Read.val_main_v22_apply, Read.val_main_v21_apply, Read.val_main_cst_6_apply, Read.val_main_cst_7_apply,
    Ideal.hostDivf_def, ← Equiv.sum_comp rowEquiv.symm]
  unfold Contrastive.loss
  refine congrArg (fun t => Ideal.div (_ + t) _) (Finset.sum_congr rfl fun r _ => ?_)
  exact row_eq x tg r

/-- The composed term the reference's run ends at, over any memory, is the specified loss of the two arguments. -/
theorem ref_eq (m : (ℓ : Loc nD τ sig) → Buf (Elt Ideal) ℓ) (c : Dev nD) :
    Host.divf (F := Ideal) (Host.reduceAdd (F := Ideal) (addf (Host.reduceAdd (F := Ideal) (select (andi (cmpi .eq
      (broadcastInDim S8192x8192 ![0, 1] bcast_S8192x1_S8192x8192_0_1 (broadcastInDim S8192x1 ![0]
      bcast_S8192_S8192x1_0 (m ((c.tc : Thread nD τ).loc main_arg1) : IVec S8192 32))) (broadcastInDim S8192x8192
      ![0, 1] bcast_S1x8192_S8192x8192_0_1 (broadcastInDim S1x8192 ![1] bcast_S8192_S1x8192_1 (m ((c.tc : Thread nD
      τ).loc main_arg1) : IVec S8192 32)))) (cmpf .olt (Host.dotGeneral (F := Ideal) (φ₁ := .f32) (φ₂ := .f32)
      dot_S8192x256_S256x8192_S8192x8192_1_0_0_1_n_n none (m ((c.tc : Thread nD τ).loc main_arg0) : FVec Ideal
      S8192x256 .f32) (transpose S256x8192 [1, 0] (m ((c.tc : Thread nD τ).loc main_arg0) : FVec Ideal S8192x256
      .f32) transposes_S8192x256_S256x8192_1_0)) (broadcastInDim S8192x8192 ![] bcast_S_S8192x8192 (constant (F :=
      Ideal) S_ .f32 0x3F800000#32)))) (subf (broadcastInDim S8192x8192 ![] bcast_S_S8192x8192 (constant (F := Ideal)
      S_ .f32 0x3F800000#32)) (Host.dotGeneral (F := Ideal) (φ₁ := .f32) (φ₂ := .f32)
      dot_S8192x256_S256x8192_S8192x8192_1_0_0_1_n_n none (m ((c.tc : Thread nD τ).loc main_arg0) : FVec Ideal
      S8192x256 .f32) (transpose S256x8192 [1, 0] (m ((c.tc : Thread nD τ).loc main_arg0) : FVec Ideal S8192x256
      .f32) transposes_S8192x256_S256x8192_1_0))) (broadcastInDim S8192x8192 ![] bcast_S_S8192x8192 (id (constant (F
      := Ideal) S_ .f32 0x00000000#32)))) (constant (F := Ideal) S_ .f32 0x00000000#32) reducesTo_S8192x8192_S8192_d1
      h_S_) (Host.reduceAdd (F := Ideal) (select (andi (noti (cmpi .eq (broadcastInDim S8192x8192 ![0, 1]
      bcast_S8192x1_S8192x8192_0_1 (broadcastInDim S8192x1 ![0] bcast_S8192_S8192x1_0 (m ((c.tc : Thread nD τ).loc
      main_arg1) : IVec S8192 32))) (broadcastInDim S8192x8192 ![0, 1] bcast_S1x8192_S8192x8192_0_1 (broadcastInDim
      S1x8192 ![1] bcast_S8192_S1x8192_1 (m ((c.tc : Thread nD τ).loc main_arg1) : IVec S8192 32))))) (cmpf .ogt
      (Host.dotGeneral (F := Ideal) (φ₁ := .f32) (φ₂ := .f32) dot_S8192x256_S256x8192_S8192x8192_1_0_0_1_n_n none (m
      ((c.tc : Thread nD τ).loc main_arg0) : FVec Ideal S8192x256 .f32) (transpose S256x8192 [1, 0] (m ((c.tc :
      Thread nD τ).loc main_arg0) : FVec Ideal S8192x256 .f32) transposes_S8192x256_S256x8192_1_0)) (broadcastInDim
      S8192x8192 ![] bcast_S_S8192x8192 (constant (F := Ideal) S_ .f32 0x3E99999A#32)))) (Host.dotGeneral (F :=
      Ideal) (φ₁ := .f32) (φ₂ := .f32) dot_S8192x256_S256x8192_S8192x8192_1_0_0_1_n_n none (m ((c.tc : Thread nD
      τ).loc main_arg0) : FVec Ideal S8192x256 .f32) (transpose S256x8192 [1, 0] (m ((c.tc : Thread nD τ).loc
      main_arg0) : FVec Ideal S8192x256 .f32) transposes_S8192x256_S256x8192_1_0)) (broadcastInDim S8192x8192 ![]
      bcast_S_S8192x8192 (id (constant (F := Ideal) S_ .f32 0x00000000#32)))) (constant (F := Ideal) S_ .f32
      0x00000000#32) reducesTo_S8192x8192_S8192_d1 h_S_)) (constant (F := Ideal) S_ .f32 0x00000000#32)
      reducesTo_S8192_S_d0 h_S_) (constant (F := Ideal) S_ .f32 0x46000000#32)
      = fun _ => Contrastive.loss (m ((c.tc : Thread nD τ).loc main_arg0)) (m ((c.tc : Thread nD τ).loc main_arg1)) :=
  (Read.val_main_v22_eq (F := Ideal) _ _).trans (val_eq _ _)

end Cert.RefSide

end
-- ==== Proof.lean ====
/-
  The certificate's claims for the tiled contrastive-loss kernel against its plain reference.

  Both programs compute, over the extended reals, the number Contrastive.loss of Proof/Spec.lean: for every pair of
  rows the inner product, a positive term 1 − s for a pair of equal labels with s < 1, a negative term s for a pair of
  different labels with s > 0.3, each row's two sums added, the rows' totals added and divided by 8192.  The reference
  forms the whole 8192 × 8192 table and sums its rows; the kernel walks an 8 × 8 grid of 1024 × 1024 tiles, keeping a
  running sum per row in a scratch that it resets at the first tile of a row of tiles and copies out at the last.  The
  two are joined by regrouping sums only (Proof/Regroup.lean), so the precondition is never opened.

  The frames: the kernel program is run as host operations, one region, host operations; the region reads the rows
  array through two windows that share it, each holding half of its share (Proof/KI/Launch.lean, Proof/K/Launch.lean),
  and the body's obligation is proved point by point in three classes of points (Proof/KI/Data.lean, Proof/K/Data.lean).
  The reference's frame is its run with the result dropped.  Nothing was rewritten by the idealization, so the
  preservation claim is trivial.
-/
import proofs.«111649_j5815385719271_1_alg».proof.Defs
import proofs.«111649_j5815385719271_1_alg».proof.Proof.Gen.Kernel
import proofs.«111649_j5815385719271_1_alg».proof.Proof.Gen.KernelIdeal
import proofs.«111649_j5815385719271_1_alg».proof.Proof.Gen.ReferenceIdeal
import proofs.«111649_j5815385719271_1_alg».proof.Proof.Gen.Pre_finite_inputs
import proofs.«111649_j5815385719271_1_alg».proof.Proof.K.Frame
import proofs.«111649_j5815385719271_1_alg».proof.Proof.KI.Frame
import proofs.«111649_j5815385719271_1_alg».proof.Proof.KI.Result
import proofs.«111649_j5815385719271_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs to its end and leaves both arguments as launched. -/
theorem frame_k : Cert.frame_Kernel := fun m ρ _ => Cert.Kernel.Hand.frame m ρ

/-- So does the same program read over the extended reals. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the rows and the labels, both programs end at Contrastive.loss of them. -/
theorem algebraic : Cert.algebraic_KernelIdeal_ReferenceIdeal := by
  intro m ρ m' ρ' _ hagree
  refine ⟨fun c => fun _ => Contrastive.loss (m ((c.tc : Thread _ _).loc Cert.KernelIdeal.main_arg0)) (m ((c.tc : Thread _ _).loc Cert.KernelIdeal.main_arg1)), ?_, ?_⟩
  · exact (θ_run Cert.KernelIdeal.defs _ _).mono (fun _ h c =>
      ⟨(h c _ (Cert.KernelIdeal.Hand.mem_uc Cert.KernelIdeal.main_v4 (by decide))).trans (Cert.KernelIdeal.Hand.kernel_result m c),
       (h c _ (Cert.KernelIdeal.Hand.mem_uc Cert.KernelIdeal.main_arg0 (by decide))).trans
         (Cert.KernelIdeal.Hand.W3_main_arg0 m (Cert.KernelIdeal.Hand.dat m) (Cert.KernelIdeal.Hand.A_eq m) c),
       (h c _ (Cert.KernelIdeal.Hand.mem_uc Cert.KernelIdeal.main_arg1 (by decide))).trans
         (Cert.KernelIdeal.Hand.W3_main_arg1 m (Cert.KernelIdeal.Hand.dat m) c)⟩)
      (Cert.KernelIdeal.Hand.run_main (F := Ideal) m ρ)
  · refine (θ_run Cert.ReferenceIdeal.defs _ _).mono (fun _ h c => ⟨?_, (h c).2.1, (h c).2.2⟩)
      (Cert.ReferenceIdeal.Value.run (F := Ideal) m' ρ')
    rw [(h c).1, Cert.RefSide.ref_eq, (hagree c).1, (hagree c).2]; rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
